-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S8 : Shape := ⟨1, ![8]⟩
abbrev S16x4096x4096 : Shape := ⟨3, ![16, 4096, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S16x4096x4096 : S_.BroadcastsInDim S16x4096x4096 (![] : Fin 0 → Fin S16x4096x4096.rank)
  reducesTo_S16x4096x4096_S_d0_1_2 : S16x4096x4096.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S8x2048x4096 .f32) (main_arg1 : IVec S8 32) (main_arg2 : FVec F S16x4096x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S16x4096x4096 .f32 := Host.absf main_arg2
  let main_cst_0 : FVec F S_ .f32 := constant S_ .f32 0x7F800000#32
  let main_v5 : FVec F S16x4096x4096 .f32 := broadcastInDim S16x4096x4096 ![] bcast_S_S16x4096x4096 main_cst_0
  let main_v6 : IVec S16x4096x4096 1 := cmpf .olt main_v4 main_v5
  let main_c_1 : IVec S_ 1 := constantI S_ 1 1#1
  let main_v7 : IVec S_ 1 := (fun x v => Host.reduce IntOp.andi x v reducesTo_S16x4096x4096_S_d0_1_2 h_S_) main_v6 main_c_1
  let main_v8 : IVec S_ 1 := andi main_v3 main_v7
  let main_c_2 : IVec S_ 32 := constantI S_ 32 0#32
  let main_v9 : IVec S8 32 := broadcastInDim S8 ![] bcast_S_S8 main_c_2
  let main_v10 : IVec S8 1 := cmpi .sge main_arg1 main_v9
  let main_c_3 : IVec S_ 1 := constantI S_ 1 1#1
  let main_v11 : IVec S_ 1 := (fun x v => Host.reduce IntOp.andi x v reducesTo_S8_S_d0 h_S_) main_v10 main_c_3
  let main_v12 : IVec S_ 1 := andi main_v8 main_v11
  main_v12
-- ==== Kernel.lean ====
abbrev S8x2048x4096 : Shape := ⟨3, ![8, 2048, 4096]⟩
abbrev S8 : Shape := ⟨1, ![8]⟩
abbrev S16x4096x4096 : Shape := ⟨3, ![16, 4096, 4096]⟩
abbrev S_ : Shape := ⟨0, ![]⟩
abbrev S1x512x4096 : Shape := ⟨3, ![1, 512, 4096]⟩
abbrev S1 : Shape := ⟨1, ![1]⟩
abbrev S1x2048x512 : Shape := ⟨3, ![1, 2048, 512]⟩
abbrev S2048x4096 : Shape := ⟨2, ![2048, 4096]⟩
abbrev S2x512x4096 : Shape := ⟨3, ![2, 512, 4096]⟩
abbrev S2 : Shape := ⟨1, ![2]⟩
abbrev S512x4096 : Shape := ⟨2, ![512, 4096]⟩
abbrev S2048x512 : Shape := ⟨2, ![2048, 512]⟩

abbrev nBuf : Space → Nat
  | .hbm => 11
  | .vmem => 6
  | .smem => 1
  | _ => 0

abbrev bufTy : (tb : Table) → Fin (tcTables nBuf tb) → BufTy
  | .hbm, ⟨0, _⟩ => ⟨S8x2048x4096, .f32⟩
  | .hbm, ⟨1, _⟩ => ⟨S8, .i32⟩
  | .hbm, ⟨2, _⟩ => ⟨S16x4096x4096, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8x2048x4096, .f32⟩
  | .local _ .vmem, ⟨0, _⟩ => ⟨S1x512x4096, .f32⟩
  | .local _ .vmem, ⟨1, _⟩ => ⟨S1x512x4096, .f32⟩
  | .local _ .vmem, ⟨2, _⟩ => ⟨S1x2048x512, .f32⟩
  | .local _ .vmem, ⟨3, _⟩ => ⟨S1x2048x512, .f32⟩
  | .local _ .vmem, ⟨4, _⟩ => ⟨S2048x4096, .bf16⟩
  | .local _ .vmem, ⟨5, _⟩ => ⟨S2x512x4096, .f32⟩
  | .local _ .smem, ⟨0, _⟩ => ⟨S8, .i32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off2 (i : grid0.Coords) : Fin 3 → Nat :=
  let arg0 : BitVec 32 := BitVec.ofNat 32 (i 0).val
  let c0_i32_12 : BitVec 32 := 0#32
  let c0_i32_13 : BitVec 32 := 0#32
  ![arg0.toNat, 0, 0]
def k0_off3 (i : grid0.Coords) : Fin 3 → Nat :=
  let arg0 : BitVec 32 := BitVec.ofNat 32 (i 0).val
  let c512_i32 : BitVec 32 := 512#32
  let c0_i32_23 : BitVec 32 := 0#32
  ![arg0.toNat, 512, 0]
def k0_off4 (i : grid0.Coords) : Fin 3 → Nat :=
  let arg0 : BitVec 32 := BitVec.ofNat 32 (i 0).val
  let c1024_i32 : BitVec 32 := 1024#32
  let c0_i32_39 : BitVec 32 := 0#32
  ![arg0.toNat, 1024, 0]
def k0_off5 (i : grid0.Coords) : Fin 3 → Nat :=
  let arg0 : BitVec 32 := BitVec.ofNat 32 (i 0).val
  let c1536_i32 : BitVec 32 := 1536#32
  let c0_i32_53 : BitVec 32 := 0#32
  ![arg0.toNat, 1536, 0]
def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S_S8 : S_.BroadcastsInDim S8 (![] : Fin 0 → Fin S8.rank)
  numel1_S1 : S1.numel = 1
  inb_S2_S1_0 : ∀ a, (![0] : Fin 1 → Nat) a + S1.size a ≤ S2.size a
  squeezes_S1_S_ : S1.Squeezes S_
  inb_S2x512x4096_S1x512x4096_0_0_0 : ∀ a, (![0, 0, 0] : Fin 3 → Nat) a + S1x512x4096.size a ≤ S2x512x4096.size a
  squeezes_S1x512x4096_S512x4096 : S1x512x4096.Squeezes S512x4096
  inb_S2_S1_1 : ∀ a, (![1] : Fin 1 → Nat) a + S1.size a ≤ S2.size a
  inb_S2x512x4096_S1x512x4096_1_0_0 : ∀ a, (![1, 0, 0] : Fin 3 → Nat) a + S1x512x4096.size a ≤ S2x512x4096.size a
  h_S1x512x4096 : 0 < S1x512x4096.numel
  shapeCasts_S1x512x4096_S512x4096 : S1x512x4096.ShapeCasts S512x4096
  bitsLt_bf16_f32 : FTy.bits .bf16 < FTy.bits .f32
  inb_S2048x4096_S512x4096_0_0 : ∀ a, (![0, 0] : Fin 2 → Nat) a + S512x4096.size a ≤ S2048x4096.size a
  h_S512x4096 : 0 < S512x4096.numel
  shapeCasts_S512x4096_S512x4096 : S512x4096.ShapeCasts S512x4096
  packedbf16_S2048x4096_S512x4096_0_0 : (Rect.unit (s := S2048x4096) ![0, 0] S512x4096.size inb_S2048x4096_S512x4096_0_0).PackedRows (EltTy.packing .bf16)
  inb_S2048x4096_S512x4096_512_0 : ∀ a, (![512, 0] : Fin 2 → Nat) a + S512x4096.size a ≤ S2048x4096.size a
  packedbf16_S2048x4096_S512x4096_512_0 : (Rect.unit (s := S2048x4096) ![512, 0] S512x4096.size inb_S2048x4096_S512x4096_512_0).PackedRows (EltTy.packing .bf16)
  inb_S2048x4096_S512x4096_1024_0 : ∀ a, (![1024, 0] : Fin 2 → Nat) a + S512x4096.size a ≤ S2048x4096.size a
  packedbf16_S2048x4096_S512x4096_1024_0 : (Rect.unit (s := S2048x4096) ![1024, 0] S512x4096.size inb_S2048x4096_S512x4096_1024_0).PackedRows (EltTy.packing .bf16)
  inb_S2048x4096_S512x4096_1536_0 : ∀ a, (![1536, 0] : Fin 2 → Nat) a + S512x4096.size a ≤ S2048x4096.size a
  packedbf16_S2048x4096_S512x4096_1536_0 : (Rect.unit (s := S2048x4096) ![1536, 0] S512x4096.size inb_S2048x4096_S512x4096_1536_0).PackedRows (EltTy.packing .bf16)
  inb_S2048x4096_S2048x4096_0_0 : ∀ a, (![0, 0] : Fin 2 → Nat) a + S2048x4096.size a ≤ S2048x4096.size a
  h_S2048x4096 : 0 < S2048x4096.numel
  inb_S1x512x4096_S1x512x4096_0_0_0 : ∀ a, (![0, 0, 0] : Fin 3 → Nat) a + S1x512x4096.size a ≤ S1x512x4096.size a
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  dot_S2048x4096_S512x4096_S2048x512_1_1_0_0_n_n_wf : DotDims.WF S2048x4096 S512x4096 S2048x512 [1] [1] [0] [0] [] []
  hcc0_scratch2 : 4 + S2.numel ≤ 6
  hrank0 : 0 < grid0.rank
  k0_off1_inb : ∀ i : grid0.Coords, ∀ a, (k0_off1 i) a + S1.size a ≤ S8.size a
  k0_off2_inb : ∀ i : grid0.Coords, ∀ (k0_h1 : k0_cond1 i = 1#1), ∀ a, (k0_off2 i) a + S1x512x4096.size a ≤ S8x2048x4096.size a
  k0_off3_inb : ∀ i : grid0.Coords, ∀ (k0_h1 : k0_cond1 i = 1#1), ∀ a, (k0_off3 i) a + S1x512x4096.size a ≤ S8x2048x4096.size a
  k0_off4_inb : ∀ i : grid0.Coords, ∀ (k0_h1 : k0_cond1 i = 1#1), ∀ a, (k0_off4 i) a + S1x512x4096.size a ≤ S8x2048x4096.size a
  k0_off5_inb : ∀ i : grid0.Coords, ∀ (k0_h1 : k0_cond1 i = 1#1), ∀ a, (k0_off5 i) a + S1x512x4096.size a ≤ S8x2048x4096.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_1 k0_off1_inb numel1_S1 pf i = cc0_transform_1 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S1x2048x512.size a ≤ S8x2048x4096.size a
  hwx0_1 : ∀ i : grid0.Coords, EltTy.bits .f32 = 32 ∨ (Rect.block (s := S8x2048x4096) S1x2048x512.size (cc0_transform_2 i) (hinb0_1 i)).WholeWords (EltTy.packing .f32)

variable [Facts₀]

abbrev cc0_scratch2 : DmaSems sig S2 := SemArray.consecutive 4 S2 hcc0_scratch2
def dot_S2048x4096_S512x4096_S2048x512_1_1_0_0_n_n : DotDims S2048x4096 S512x4096 S2048x512 where
  lhsContracting := [1]
  rhsContracting := [1]
  lhsNonContracting := [0]
  rhsNonContracting := [0]
  lhsBatch := []
  rhsBatch := []
  wf := dot_S2048x4096_S512x4096_S2048x512_1_1_0_0_n_n_wf

abbrev spec0_0 : Pipeline.WinSpec sig grid0.rank :=
  Pipeline.WinSpec.ofSpec (Memref.whole main_arg2) S1x512x4096.size reads0_0 false false 2 stage0_0 sem0_0 nbuf0_0 hstage0_0

abbrev spec0_1 : Pipeline.WinSpec sig grid0.rank :=
  Pipeline.WinSpec.ofSpec (Memref.whole main_v1) S1x2048x512.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_1 k0_off1_inb numel1_S1 pf | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | ⟨_ + 2, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x512x4096.size a ≤ S16x4096x4096.size a), EltTy.bits .f32 = 32 ∨ (Rect.block (s := S16x4096x4096) S1x512x4096.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S8x2048x4096 : Shape := ⟨3, ![8, 2048, 4096]⟩
abbrev S8 : Shape := ⟨1, ![8]⟩
abbrev S16x4096x4096 : Shape := ⟨3, ![16, 4096, 4096]⟩
abbrev S_ : Shape := ⟨0, ![]⟩
abbrev S8x1 : Shape := ⟨2, ![8, 1]⟩
abbrev S8x4096x4096 : Shape := ⟨3, ![8, 4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S8, .i32⟩
  | .hbm, ⟨2, _⟩ => ⟨S16x4096x4096, .f32⟩
  | .hbm, ⟨3, _⟩ => ⟨S_, .i32⟩
  | .hbm, ⟨4, _⟩ => ⟨S8, .i32⟩
  | .hbm, ⟨5, _⟩ => ⟨S8, .i1⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S8, .i32⟩
  | .hbm, ⟨10, _⟩ => ⟨S8x1, .i32⟩
  | .hbm, ⟨11, _⟩ => ⟨S8x4096x4096, .f32⟩
  | .hbm, ⟨12, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S8x1_0 : S8.BroadcastsInDim S8x1 (![0] : Fin 1 → Fin S8x1.rank)
  gather_S16x4096x4096_S8x1_S8x4096x4096_12_0_n_n_0_1_140964096_wf : GatherDims.WF S16x4096x4096 S8x1 S8x4096x4096 [1, 2] [0] [] [0] [] 1 ![1, 4096, 4096]
  dot_S8x2048x4096_S8x4096x4096_S8x2048x4096_2_2_1_1_0_0_wf : DotDims.WF S8x2048x4096 S8x4096x4096 S8x2048x4096 [2] [2] [1] [1] [0] [0]

variable [Facts₀]

def gather_S16x4096x4096_S8x1_S8x4096x4096_12_0_n_n_0_1_140964096 : GatherDims S16x4096x4096 S8x1 S8x4096x4096 where
  offsetDims := [1, 2]
  collapsedSliceDims := [0]
  operandBatchingDims := []
  startIndicesBatchingDims := []
  startIndexMap := [0]
  indexVectorDim := 1
  sliceSizes := ![1, 4096, 4096]
  wf := gather_S16x4096x4096_S8x1_S8x4096x4096_12_0_n_n_0_1_140964096_wf
def dot_S8x2048x4096_S8x4096x4096_S8x2048x4096_2_2_1_1_0_0 : DotDims S8x2048x4096 S8x4096x4096 S8x2048x4096 where
  lhsContracting := [2]
  rhsContracting := [2]
  lhsNonContracting := [1]
  rhsNonContracting := [1]
  lhsBatch := [0]
  rhsBatch := [0]
  wf := dot_S8x2048x4096_S8x4096x4096_S8x2048x4096_2_2_1_1_0_0_wf

class Facts : Prop extends Facts₀ where

variable [Facts]
-- ==== Proof.LibSlotRead.lean ====
/-
  A GENERAL lemma file (no program is named): reading a slot of a staging buffer back after a transfer has landed in it.

  A buffer seen through a view `v` of shape `s` is used as a ring of slots: a rectangle `r` of it, re-indexed by another
  shape `s'` with as many elements (a slot with its unit axes squeezed away), is the destination of a transfer whose
  payload `d` is indexed by `s'`. Written as a list of writes through `v` itself, that delivery is the ONE piece
  `⟨r, d ∘ (re-indexing)⟩` (`write_reshaped_slice`). So a load of the rectangle `r` right after the delivery reads the
  payload, re-indexed, whatever the buffer held before (`readAt_hit`), and a load of a rectangle disjoint from `r` does
  not see the delivery at all (`readAt_miss`; `readAt_miss_unit` for unit-stride rectangles separated on one axis).
-/
import Idealize.ShloMosaic.Lib.Pipeline.FrameBody
import Idealize.ShloMosaic.Lib.Exec.Geometry
import Idealize.ShloMosaic.Lib.Writes

noncomputable section

namespace Cert.SlotRead

open Idealize.ShloMosaic

variable {sig : RefSig} {κ : Kind} {sp : Space} {s s' : Shape} {e : EltTy} {Val : EltTy → Type}

/-- An unmasked write through a re-indexed rectangle of a view is the one-piece list of writes through the view. -/
theorem write_reshaped_slice (v : View sig κ sp s e) (r : Rect s) (h : s'.numel = r.shape.numel)
    (g : v.ty.Contents Val) (d : s'.Idx → Val e) :
    View.write Val ((v.slice r).reshape s' h) g d Finset.univ
      = v.writes Val g [⟨r, fun x => d ((Shape.reshapeEquiv h).symm x)⟩] := by
  rw [View.write_reshape_univ]
  rfl

/-- A load of the rectangle just delivered into reads the payload (re-indexed). -/
theorem readAt_hit [∀ e, Nonempty (Val e)] (v : View sig κ sp s e) (r : Rect s) (h : s'.numel = r.shape.numel)
    (g : v.ty.Contents Val) (d : s'.Idx → Val e) :
    View.readAt Val v r.toLoadRect (View.write Val ((v.slice r).reshape s' h) g d Finset.univ)
      = fun x => d ((Shape.reshapeEquiv h).symm x) := by
  rw [write_reshaped_slice,
    View.readAt_writes_of_cover _ _ _ _ (fun j => ⟨_, List.mem_singleton_self _, r.idx_mem j⟩),
    View.readCov_cons_toLoadRect]

/-- A load of a rectangle disjoint from the delivery's does not see it. -/
theorem readAt_miss (v : View sig κ sp s e) (r r' : Rect s) (h : s'.numel = r'.shape.numel)
    (hd : Disjoint r.set r'.set) (g : v.ty.Contents Val) (d : s'.Idx → Val e) :
    View.readAt Val v r.toLoadRect (View.write Val ((v.slice r').reshape s' h) g d Finset.univ)
      = View.readAt Val v r.toLoadRect g := by
  rw [write_reshaped_slice]
  refine View.readAt_writes_of_forall_not_mem _ _ _ _ (fun j p hp hm => ?_)
  obtain rfl := List.mem_singleton.mp hp
  exact (Finset.disjoint_left.mp hd (r.idx_mem j)) hm

/-- The same for two unit-stride rectangles separated on one axis. -/
theorem readAt_miss_unit (v : View sig κ sp s e) {off size off' size' : Fin s.rank → Nat}
    (inb : ∀ a, off a + size a ≤ s.size a) (inb' : ∀ a, off' a + size' a ≤ s.size a) (a : Fin s.rank)
    (hsep : off a + size a ≤ off' a ∨ off' a + size' a ≤ off a)
    (h : s'.numel = (Rect.unit off' size' inb').shape.numel) (g : v.ty.Contents Val) (d : s'.Idx → Val e) :
    View.readAt Val v (Rect.unit off size inb).toLoadRect
        (View.write Val ((v.slice (Rect.unit off' size' inb')).reshape s' h) g d Finset.univ)
      = View.readAt Val v (Rect.unit off size inb).toLoadRect g :=
  readAt_miss v _ _ h (Rect.unit_disjoint a hsep) g d

end Cert.SlotRead

end
-- ==== Proof.AdapterIndex.lean ====
/-
  The adapter index of a batch element, as a word computation. `sel w` is the signed reading of the 32-bit word `w`
  clamped into `[0, 15]`: the row of the 16-adapter weight table a batch element with id `w` reads.
  The kernel computes it as `min 15 (max 0 w)` on signed words (`clip_toNat`: for EVERY word). The reference first adds 16
  to a negative id and leaves the clamping to the gather, which clamps the start index into the table; on a
  nonnegative id the wrap is the identity (`wrap_of_nonneg`), so the gather reads row `sel w` too.
-/
import Idealize.ShloMosaic.Lib.WordArith
import Idealize.ShloMosaic.PureOps

namespace Cert.AdapterIndex

open Idealize.ShloMosaic

/-- The adapter row a signed id word selects: its integer value clamped into `[0, 15]`. -/
def sel (w : BitVec 32) : Fin 16 := ⟨min w.toInt.toNat 15, by omega⟩

/-- The kernel's clip `min 15 (max 0 w)` on signed words, read as a natural number, is `sel w` — for every word. -/
theorem clip_toNat (w : BitVec 32) : (IntOp.minsi 15#32 (IntOp.maxsi 0#32 w)).toNat = (sel w).val := by
  have h1 := WordArith.toNat_maxsi_zero w
  have h2 : 2 * (IntOp.maxsi 0#32 w).toNat < 2 ^ 32 := WordArith.two_mul_toNat_maxsi_zero_lt w
  have h2' : (IntOp.maxsi 0#32 w).toNat < 2 ^ 31 := by omega
  rw [WordArith.toNat_minsi_of_lt 15#32 _ (by decide) h2', h1]
  have e : (15#32 : BitVec 32).toNat = 15 := by decide
  rw [e]
  show min 15 w.toInt.toNat = min w.toInt.toNat 15
  exact Nat.min_comm _ _

/-- The reference's wrap of a negative id (`w + 16` where `w < 0`, else `w`) leaves a nonnegative id alone. -/
theorem wrap_of_nonneg (w : BitVec 32) (h : 0 ≤ w.toInt) :
    Scalar.select (IntOp.cmpi .slt w 0#32) (IntOp.addi w 16#32) w = w := by
  have h0 : (0#32 : BitVec 32).toInt = 0 := by decide
  have hs : w.slt 0#32 = false := by
    rw [Bool.eq_false_iff]
    intro hs
    have := BitVec.slt_iff_toInt_lt.mp hs
    omega
  have hc : IntOp.cmpi .slt w 0#32 = 0#1 := by
    unfold IntOp.cmpi
    rw [hs]
    rfl
  rw [hc]
  exact if_neg (by decide)

/-- A signed comparison `w ≥ 0` that holds says the word's integer value is nonnegative. -/
theorem nonneg_of_sge (w : BitVec 32) (h : IntOp.cmpi .sge w 0#32 = 1#1) : 0 ≤ w.toInt := by
  have h0 : (0#32 : BitVec 32).toInt = 0 := by decide
  unfold IntOp.cmpi at h
  rw [WordArith.ofBool_eq_one_iff] at h
  have h' : (0#32 : BitVec 32).sle w = true := h
  rw [BitVec.sle_eq_decide, decide_eq_true_eq] at h'
  omega

end Cert.AdapterIndex
-- ==== Proof.KernelTable.lean ====
/-
  The prefetched table of the kernel's pipelined region, read off the launch memory.

  Before the region the host clips the adapter ids: `min 15 (max 0 id)` on signed 32-bit words, elementwise over
  the 8 batch elements, and places the result in scalar memory as the table the index map of the weight window reads.
  `tbl_apply` reads that table at an index; `tbl_toNat` says its word at batch element `b`, as a natural number, is the
  adapter row `sel (id b)` (the signed id clamped into [0, 15]) — for EVERY id word, no precondition.
  `ok` is the pipeline's side condition on the table: at every grid point (b, s) the weight window's block index is
  (table[b], s, 0) with blocks of shape [1, 512, 4096] in the [16, 4096, 4096] weight array; table[b] ≤ 15 by the clamp,
  s < 8 is the grid's extent and 8 · 512 = 4096, so the block lies inside the array, and a 32-bit element type
  needs no word alignment.
-/
import proofs.«401011_j83623013253472_3_alg».proof.Proof.Gen.Kernel.Frame.Runs
import Idealize.ShloMosaic.Lib.ValueIdx
import proofs.«401011_j83623013253472_3_alg».proof.Proof.AdapterIndex

set_option maxRecDepth 16384

noncomputable section

namespace Cert.Kernel.Table

open Cert.Kernel Cert.Kernel.Gen
open Idealize.ShloMosaic Idealize.ShloMosaic.TcCoe Idealize.SL.Sem

variable {F : FTy → Type} [FloatOps F] (m : (ℓ : Loc nD τ sig) → Buf (Elt F) ℓ)

/-- The table at an index: the host's clip of the id word there. The six host operations are two scalar constants
    broadcast over the 8 elements, a pointwise signed maximum with 0 and a pointwise signed minimum with 15; every
    other step is a typed-reference cast, the identity. -/
theorem tbl_apply (x : S8.Idx) :
    tbl m 0 x = IntOp.minsi 15#32 (IntOp.maxsi 0#32 (m (((0 : Dev nD) : Thread nD τ).loc main_arg1) x)) := by
  unfold tbl
  show V m 0 main_v0 x = _
  dsimp only [V]
  simp only [hostOps0, hostOps0_1, List.flatten_cons, List.flatten_nil, List.append_nil, List.cons_append, List.nil_append]
  after_results
  rfl

/-- The table's word at batch element `b`, as a natural number, is the adapter row the id of `b` selects. -/
theorem tbl_toNat (b : Fin 8) :
    (tbl m 0 (ValueIdx.ix1 b)).toNat
      = (Cert.AdapterIndex.sel (m (((0 : Dev nD) : Thread nD τ).loc main_arg1) (ValueIdx.ix1 b))).val := by
  rw [tbl_apply]
  exact Cert.AdapterIndex.clip_toNat _

/-- Every word of the table is below 16: it is a clamp into [0, 15]. -/
theorem tbl_lt (x : S8.Idx) : (tbl m 0 x).toNat < 16 := by
  rw [tbl_apply, Cert.AdapterIndex.clip_toNat]
  exact (Cert.AdapterIndex.sel _).isLt

/-- The weight window's index map at ANY contents `pf` of the table: (the table's word at some index, the grid's second
    coordinate, 0). Stated with the contents a variable: the map reads one word of the table and does nothing else with it. -/
theorem transform_eq (pf : pre0.Contents (Elt F)) (i : grid0.Coords) :
    ∃ x : S8.Idx, cc0_transform_1 Facts₀.k0_off1_inb Facts₀.numel1_S1 pf i
      = ![(pf 0 x).toNat, (BitVec.ofNat 32 (i 1).val).toNat, 0] :=
  ⟨_, rfl⟩

/-- The pipeline's side condition at the table the launch memory gives: every block of the weight window inside the
    weight array. No precondition: the clamp alone keeps the table's words in [0, 15]. -/
theorem ok : Ok m := by
  intro i
  obtain ⟨x, e⟩ := transform_eq (tbl m) i
  have hw : (tbl m 0 x).toNat < 16 := tbl_lt m x
  have hs : (i 1).val < 8 := (i 1).isLt
  refine ⟨fun a => ?_, Or.inl rfl⟩
  rw [e]
  generalize (tbl m 0 x).toNat = w at hw
  fin_cases a <;> simp [S1x512x4096, S16x4096x4096] <;> omega

end Cert.Kernel.Table

end
-- ==== Proof.KernelIdealTable.lean ====
/-
  The prefetched table of the kernel's pipelined region, read off the launch memory.

  Before the region the host clips the adapter ids: `min 15 (max 0 id)` on signed 32-bit words, elementwise over
  the 8 batch elements, and places the result in scalar memory as the table the index map of the weight window reads.
  `tbl_apply` reads that table at an index; `tbl_toNat` says its word at batch element `b`, as a natural number, is the
  adapter row `sel (id b)` (the signed id clamped into [0, 15]) — for EVERY id word, no precondition.
  `ok` is the pipeline's side condition on the table: at every grid point (b, s) the weight window's block index is
  (table[b], s, 0) with blocks of shape [1, 512, 4096] in the [16, 4096, 4096] weight array; table[b] ≤ 15 by the clamp,
  s < 8 is the grid's extent and 8 · 512 = 4096, so the block lies inside the array, and a 32-bit element type
  needs no word alignment.
-/
import proofs.«401011_j83623013253472_3_alg».proof.Proof.Gen.KernelIdeal.Frame.Runs
import Idealize.ShloMosaic.Lib.ValueIdx
import proofs.«401011_j83623013253472_3_alg».proof.Proof.AdapterIndex

set_option maxRecDepth 16384

noncomputable section

namespace Cert.KernelIdeal.Table

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

/-- The table at an index: the host's clip of the id word there. The six host operations are two scalar constants
    broadcast over the 8 elements, a pointwise signed maximum with 0 and a pointwise signed minimum with 15; every
    other step is a typed-reference cast, the identity. -/
theorem tbl_apply (x : S8.Idx) :
    tbl m 0 x = IntOp.minsi 15#32 (IntOp.maxsi 0#32 (m (((0 : Dev nD) : Thread nD τ).loc main_arg1) x)) := by
  unfold tbl
  show V m 0 main_v0 x = _
  dsimp only [V]
  simp only [hostOps0, hostOps0_1, List.flatten_cons, List.flatten_nil, List.append_nil, List.cons_append, List.nil_append]
  after_results
  rfl

/-- The table's word at batch element `b`, as a natural number, is the adapter row the id of `b` selects. -/
theorem tbl_toNat (b : Fin 8) :
    (tbl m 0 (ValueIdx.ix1 b)).toNat
      = (Cert.AdapterIndex.sel (m (((0 : Dev nD) : Thread nD τ).loc main_arg1) (ValueIdx.ix1 b))).val := by
  rw [tbl_apply]
  exact Cert.AdapterIndex.clip_toNat _

/-- Every word of the table is below 16: it is a clamp into [0, 15]. -/
theorem tbl_lt (x : S8.Idx) : (tbl m 0 x).toNat < 16 := by
  rw [tbl_apply, Cert.AdapterIndex.clip_toNat]
  exact (Cert.AdapterIndex.sel _).isLt

/-- The weight window's index map at ANY contents `pf` of the table: (the table's word at some index, the grid's second
    coordinate, 0). Stated with the contents a variable: the map reads one word of the table and does nothing else with it. -/
theorem transform_eq (pf : pre0.Contents (Elt F)) (i : grid0.Coords) :
    ∃ x : S8.Idx, cc0_transform_1 Facts₀.k0_off1_inb Facts₀.numel1_S1 pf i
      = ![(pf 0 x).toNat, (BitVec.ofNat 32 (i 1).val).toNat, 0] :=
  ⟨_, rfl⟩

/-- The pipeline's side condition at the table the launch memory gives: every block of the weight window inside the
    weight array. No precondition: the clamp alone keeps the table's words in [0, 15]. -/
theorem ok : Ok m := by
  intro i
  obtain ⟨x, e⟩ := transform_eq (tbl m) i
  have hw : (tbl m 0 x).toNat < 16 := tbl_lt m x
  have hs : (i 1).val < 8 := (i 1).isLt
  refine ⟨fun a => ?_, Or.inl rfl⟩
  rw [e]
  generalize (tbl m 0 x).toNat = w at hw
  fin_cases a <;> simp [S1x512x4096, S16x4096x4096] <;> omega

end Cert.KernelIdeal.Table

end
-- ==== Proof.KernelIdealBlocks.lean ====
/-
  Where the two windows' blocks sit, at the table the launch memory gives.

  The grid has 64 points; point `t` is batch element `b = t / 8` and output tile `n = t % 8` (`coords_val`).
  The weight window's block index at `t` is (row, n, 0) with row = the adapter row `sel (id b)` the table holds for `b`
  (`index0`); its blocks have shape [1, 512, 4096] in the [16, 4096, 4096] weight array, so the block's element (0, j, k)
  is the weight array's element (row, 512 n + j, k) (`iblk0_apply`). The output window's block index is (b, 0, n)
  (`index1`), with blocks of shape [1, 2048, 512] in the [8, 2048, 4096] output: the block's element (0, s, j) is the
  output's element (b, s, 512 n + j) (`out_emb`), an index of the output is in point `t`'s block iff its first coordinate
  is b and its last lies in tile n (`out_mem`), and the 64 blocks cover the output, each written back (`out_cover`).

  Every structural fact is first stated at ARBITRARY admissible contents `a` of the table (the index maps read one word
  of it and do nothing else with it), and only then read at the launch memory's table.
-/
import proofs.«401011_j83623013253472_3_alg».proof.Proof.KernelIdealTable
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

/-! ## The grid's points -/

/-- Point `t` of the 8 × 8 grid, run row-major: first coordinate `t / 8` (the batch element), second `t % 8` (the
    output tile) — decided over the 64 points. -/
theorem coords_val : ∀ t : Fin grid0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- The grid has 64 points. -/
theorem lt64 (t : Fin grid0.N) : t.val < 64 := Nat.lt_of_lt_of_eq t.isLt N_0
/-- A point's batch element is one of 8. -/
theorem batch_lt (t : Fin grid0.N) : t.val / 8 < 8 := by have := lt64 t; omega
/-- A point's output tile is one of 8. -/
theorem tile_lt (t : Fin grid0.N) : t.val % 8 < 8 := Nat.mod_lt _ (by decide)

/-! ## The index maps, at any contents of the table -/

/-- The weight window's block index at a point is its printed index map at the point's coordinates, whatever the table holds. -/
theorem index0_adm (a : (pcfg0 (F := F)).Adm) (t : Fin (cfg0 a).N) :
    ((cfg0 a).win 0).index t = cc0_transform_1 Facts₀.k0_off1_inb Facts₀.numel1_S1 a.1 (grid0.coords t) := rfl

/-- The output window's block index at a point is its printed index map at the point's coordinates. -/
theorem index1_adm (a : (pcfg0 (F := F)).Adm) (t : Fin (cfg0 a).N) :
    ((cfg0 a).win 1).index t = cc0_transform_2 (grid0.coords t) := rfl

/-- The weight window's index map in closed form: (the table's word at the first coordinate, the second coordinate, 0).
    The coordinates are below 8, so their 32-bit words read back as themselves. -/
theorem transform1_eq (pf : pre0.Contents (Elt F)) (i : grid0.Coords) :
    cc0_transform_1 Facts₀.k0_off1_inb Facts₀.numel1_S1 pf i
      = ![(pf 0 (ValueIdx.ix1 (i 0))).toNat, (i 1).val, 0] := by
  have e0 : (Scalar.indexCast (BitVec.ofNat 32 (i 0).val)).toNat = (i 0).val := congrFun (k0_off1_eq i) 0
  have h1 : (i 1).val < 8 := (i 1).isLt
  have e1 : (BitVec.ofNat 32 (i 1).val).toNat = (i 1).val := by
    rw [BitVec.toNat_ofNat]; exact Nat.mod_eq_of_lt (by omega)
  have key : ∀ x : S8.Idx, (x 0).val = (i 0).val → pf 0 x = pf 0 (ValueIdx.ix1 (i 0)) := fun x hx =>
    congrArg (pf 0) (by funext a; match a with | ⟨0, _⟩ => exact Fin.ext hx)
  unfold cc0_transform_1
  dsimp only
  rw [e1]
  refine congrArg (fun w : BitVec 32 => ![w.toNat, (i 1).val, 0]) (key _ ?_)
  show (Scalar.indexCast (BitVec.ofNat 32 (i 0).val)).toNat + 1 * 0 = (i 0).val
  omega

/-- The output window's index map in closed form: (first coordinate, 0, second coordinate). -/
theorem transform2_eq (i : grid0.Coords) : cc0_transform_2 i = ![(i 0).val, 0, (i 1).val] := by
  have h0 : (i 0).val < 8 := (i 0).isLt
  have h1 : (i 1).val < 8 := (i 1).isLt
  have e0 : (BitVec.ofNat 32 (i 0).val).toNat = (i 0).val := by
    rw [BitVec.toNat_ofNat]; exact Nat.mod_eq_of_lt (by omega)
  have e1 : (BitVec.ofNat 32 (i 1).val).toNat = (i 1).val := by
    rw [BitVec.toNat_ofNat]; exact Nat.mod_eq_of_lt (by omega)
  unfold cc0_transform_2
  dsimp only
  rw [e0, e1]
  rfl

/-! ## The index maps at the table the launch memory gives -/

/-- The weight window's block index at point `t`, at contents `pf` of the table: (pf[t / 8], t % 8, 0). -/
theorem index0_of (a : (pcfg0 (F := F)).Adm) (pf : pre0.Contents (Elt F)) (hpf : a.1 = pf) (t : Fin (cfg0 a).N) :
    ((cfg0 a).win 0).index t = ![(pf 0 (ValueIdx.ix1 (⟨t.val / 8, batch_lt t⟩ : Fin 8))).toNat, t.val % 8, 0] := by
  subst hpf
  refine (index0_adm a t).trans ((transform1_eq a.1 (grid0.coords t)).trans ?_)
  obtain ⟨c0, c1⟩ := coords_val t
  exact congrArg₂ (fun (x : Fin 8) (n : Nat) => ![(a.1 0 (ValueIdx.ix1 x)).toNat, n, 0]) (Fin.ext c0) c1

/-- The output window's block index at point `t`: (t / 8, 0, t % 8). -/
theorem index1_of (a : (pcfg0 (F := F)).Adm) (t : Fin (cfg0 a).N) :
    ((cfg0 a).win 1).index t = ![t.val / 8, 0, t.val % 8] := by
  refine (index1_adm a t).trans ((transform2_eq (grid0.coords t)).trans ?_)
  obtain ⟨c0, c1⟩ := coords_val t
  rw [c0, c1]

/-- AT THE LAUNCH MEMORY'S TABLE the weight window's block index at point `t` is (sel (id (t / 8)), t % 8, 0): the table's
    word for batch element `t / 8` is its clamped id. -/
theorem index0 (hO : Ok m) (t : Fin (cfgM m hO).N) :
    ((cfgM m hO).win 0).index t
      = ![(Cert.AdapterIndex.sel (m (((0 : Dev nD) : Thread nD τ).loc main_arg1) (ValueIdx.ix1 (⟨t.val / 8, batch_lt t⟩ : Fin 8)))).val, t.val % 8, 0] := by
  refine (index0_of (adm m hO) (tbl m) rfl t).trans ?_
  rw [Table.tbl_toNat]

/-- The output window's block index at point `t` is (t / 8, 0, t % 8). -/
theorem index1 (hO : Ok m) (t : Fin (cfgM m hO).N) : ((cfgM m hO).win 1).index t = ![t.val / 8, 0, t.val % 8] :=
  index1_of (adm m hO) t

/-! ## The weight window's block, read at an index -/

/-- A block's coordinate is index × size + the coordinate inside the block: with block index (r, s, 0) and sizes
    (1, 512, 4096), element (0, j, k) of the weight block is element (r, 512 s + j, k) of the weight array. -/
theorem blk0_emb (a : (pcfg0 (F := F)).Adm) (t : Fin (cfg0 a).N) (r : Fin 16) (s : Fin 8)
    (hidx : ((cfg0 a).win 0).index t = ![r.val, s.val, 0]) (j : Fin 512) (k : Fin 4096) :
    (((cfg0 a).win 0).blk t).view.emb (ValueIdx.ix3 (0 : Fin 1) j k)
      = (ValueIdx.ix3 r (⟨s.val * 512 + j.val, by have := s.isLt; have := j.isLt; omega⟩ : Fin 4096) k : S16x4096x4096.Idx) := by
  have h0 : ((cfg0 a).win 0).index t (0 : Fin 3) = r.val := congrFun hidx (0 : Fin 3)
  have h1 : ((cfg0 a).win 0).index t (1 : Fin 3) = s.val := congrFun hidx (1 : Fin 3)
  have h2 : ((cfg0 a).win 0).index t (2 : Fin 3) = 0 := congrFun hidx (2 : Fin 3)
  funext ax
  apply Fin.ext
  match ax with
  | ⟨0, _⟩ => show ((cfg0 a).win 0).index t (0 : Fin 3) * 1 + 1 * 0 = r.val; omega
  | ⟨1, _⟩ => show ((cfg0 a).win 0).index t (1 : Fin 3) * 512 + 1 * j.val = s.val * 512 + j.val; omega
  | ⟨2, _⟩ => show ((cfg0 a).win 0).index t (2 : Fin 3) * 4096 + 1 * k.val = k.val; omega

/-- A block read off an array at an index of the block is the array at the embedded index. -/
theorem blk0_read (a : (pcfg0 (F := F)).Adm) (t : Fin (cfg0 a).N) (A : S16x4096x4096.Idx → Elt F .f32) (y : S1x512x4096.Idx) :
    ((((cfg0 a).win 0).blk t).view.read (Elt F) A : Vec F S1x512x4096 .f32) y = A ((((cfg0 a).win 0).blk t).view.emb y) := rfl

/-- THE WEIGHT BLOCK AT POINT `t`, read at (0, j, k): the launch memory's weight array at
    (sel (id (t / 8)), 512 (t % 8) + j, k). -/
theorem iblk0_apply (hO : Ok m) (c : Dev nD) (t : Fin (cfgM m hO).N) (j : Fin 512) (k : Fin 4096) :
    (iblk m hO c 0 t : Vec F S1x512x4096 .f32) (ValueIdx.ix3 (0 : Fin 1) j k)
      = m ((c : Thread nD τ).loc main_arg2)
          (ValueIdx.ix3 (Cert.AdapterIndex.sel (m (((0 : Dev nD) : Thread nD τ).loc main_arg1) (ValueIdx.ix1 (⟨t.val / 8, batch_lt t⟩ : Fin 8))))
            (⟨(t.val % 8) * 512 + j.val, by have := tile_lt t; have := j.isLt; omega⟩ : Fin 4096) k) := by
  refine (blk0_read (adm m hO) t (V m c main_arg2) (ValueIdx.ix3 (0 : Fin 1) j k)).trans ?_
  rw [V_main_arg2]
  exact congrArg (m ((c : Thread nD τ).loc main_arg2))
    (blk0_emb (adm m hO) t _ ⟨t.val % 8, tile_lt t⟩ (index0 m hO t) j k)

/-! ## The output window's blocks in the output array -/

/-- With block index (t / 8, 0, t % 8) and sizes (1, 2048, 512), element (0, s, j) of the output block of point `t` is
    element (t / 8, s, 512 (t % 8) + j) of the output array — at any contents of the table (the map reads none). -/
theorem blk1_emb (a : (pcfg0 (F := F)).Adm) (t : Fin (cfg0 a).N) (s : Fin 2048) (j : Fin 512) :
    (((cfg0 a).win 1).blk t).view.emb (ValueIdx.ix3 (0 : Fin 1) s j)
      = (ValueIdx.ix3 (⟨t.val / 8, batch_lt t⟩ : Fin 8) s
          (⟨(t.val % 8) * 512 + j.val, by have := tile_lt t; have := j.isLt; omega⟩ : Fin 4096) : S8x2048x4096.Idx) := by
  have hidx := index1_of a t
  have h0 : ((cfg0 a).win 1).index t (0 : Fin 3) = t.val / 8 := congrFun hidx (0 : Fin 3)
  have h1 : ((cfg0 a).win 1).index t (1 : Fin 3) = 0 := congrFun hidx (1 : Fin 3)
  have h2 : ((cfg0 a).win 1).index t (2 : Fin 3) = t.val % 8 := congrFun hidx (2 : Fin 3)
  funext ax
  apply Fin.ext
  match ax with
  | ⟨0, _⟩ => show ((cfg0 a).win 1).index t (0 : Fin 3) * 1 + 1 * 0 = t.val / 8; omega
  | ⟨1, _⟩ => show ((cfg0 a).win 1).index t (1 : Fin 3) * 2048 + 1 * s.val = s.val; omega
  | ⟨2, _⟩ => show ((cfg0 a).win 1).index t (2 : Fin 3) * 512 + 1 * j.val = (t.val % 8) * 512 + j.val; omega

/-- An index of the output array is in point `t`'s block iff each coordinate is in the block's range on its axis. -/
theorem mem_blk1_iff (a : (pcfg0 (F := F)).Adm) (t : Fin (cfg0 a).N) (i : S8x2048x4096.Idx) :
    i ∈ (((cfg0 a).win 1).blk t).view.set
      ↔ ∀ ax : Fin 3, ((cfg0 a).win 1).index t ax * S1x2048x512.size ax ≤ (i ax).val
          ∧ (i ax).val < ((cfg0 a).win 1).index t ax * S1x2048x512.size ax + S1x2048x512.size ax := by
  have e : (((cfg0 a).win 1).blk t).view.set = (((cfg0 a).win 1).rect t).set := View.set_slice_whole main_v1 _
  exact (Finset.ext_iff.mp e i).trans Rect.mem_set_unit

/-- In point `t`'s block iff the first coordinate is the batch element `t / 8` and the last lies in tile `t % 8` (the
    middle axis is whole: 2048 of 2048). -/
theorem mem_blk1 (a : (pcfg0 (F := F)).Adm) (t : Fin (cfg0 a).N) (i : S8x2048x4096.Idx) :
    i ∈ (((cfg0 a).win 1).blk t).view.set ↔ (i 0).val = t.val / 8 ∧ (i 2).val / 512 = t.val % 8 := by
  rw [mem_blk1_iff]
  have hidx := index1_of a t
  have h0 : ((cfg0 a).win 1).index t (0 : Fin 3) = t.val / 8 := congrFun hidx (0 : Fin 3)
  have h1 : ((cfg0 a).win 1).index t (1 : Fin 3) = 0 := congrFun hidx (1 : Fin 3)
  have h2 : ((cfg0 a).win 1).index t (2 : Fin 3) = t.val % 8 := congrFun hidx (2 : Fin 3)
  have hi1 : (i 1).val < 2048 := (i 1).isLt
  constructor
  · intro h
    have b0 : ((cfg0 a).win 1).index t (0 : Fin 3) * 1 ≤ (i 0).val ∧ (i 0).val < ((cfg0 a).win 1).index t (0 : Fin 3) * 1 + 1 := h 0
    have b2 : ((cfg0 a).win 1).index t (2 : Fin 3) * 512 ≤ (i 2).val ∧ (i 2).val < ((cfg0 a).win 1).index t (2 : Fin 3) * 512 + 512 := h 2
    omega
  · rintro ⟨e0, e2⟩ ax
    match ax with
    | ⟨0, _⟩ => show ((cfg0 a).win 1).index t (0 : Fin 3) * 1 ≤ (i 0).val ∧ (i 0).val < ((cfg0 a).win 1).index t (0 : Fin 3) * 1 + 1; omega
    | ⟨1, _⟩ => show ((cfg0 a).win 1).index t (1 : Fin 3) * 2048 ≤ (i 1).val ∧ (i 1).val < ((cfg0 a).win 1).index t (1 : Fin 3) * 2048 + 2048; omega
    | ⟨2, _⟩ => show ((cfg0 a).win 1).index t (2 : Fin 3) * 512 ≤ (i 2).val ∧ (i 2).val < ((cfg0 a).win 1).index t (2 : Fin 3) * 512 + 512; omega

/-- Every index of the output array lies in the block of exactly the point (batch element, tile) = (i 0, i 2 / 512). -/
theorem point_of (i : S8x2048x4096.Idx) : ∃ t : Fin grid0.N, (i 0).val = t.val / 8 ∧ (i 2).val / 512 = t.val % 8 := by
  have h0 : (i 0).val < 8 := (i 0).isLt
  have h2 : (i 2).val < 4096 := (i 2).isLt
  refine ⟨⟨(i 0).val * 8 + (i 2).val / 512, by rw [N_0]; omega⟩, ?_, ?_⟩
  · show (i 0).val = ((i 0).val * 8 + (i 2).val / 512) / 8; omega
  · show (i 2).val / 512 = ((i 0).val * 8 + (i 2).val / 512) % 8; omega

/-- THE COVER: every index of the output array is in the block of a point that writes its block back (every point does). -/
theorem cover1 (a : (pcfg0 (F := F)).Adm) (i : S8x2048x4096.Idx) :
    ∃ t : Fin (cfg0 a).N, ((cfg0 a).win 1).flush t = true ∧ i ∈ (((cfg0 a).win 1).blk t).view.set := by
  obtain ⟨t, h0, h2⟩ := point_of i
  exact ⟨t, flush0_1 a t, (mem_blk1 a t i).mpr ⟨h0, h2⟩⟩

/-! ### At the launch memory's table -/

/-- `blk1_emb` at the launch memory's table. -/
theorem out_emb (hO : Ok m) (t : Fin (cfgM m hO).N) (s : Fin 2048) (j : Fin 512) :
    (((cfgM m hO).win 1).blk t).view.emb (ValueIdx.ix3 (0 : Fin 1) s j)
      = (ValueIdx.ix3 (⟨t.val / 8, batch_lt t⟩ : Fin 8) s
          (⟨(t.val % 8) * 512 + j.val, by have := tile_lt t; have := j.isLt; omega⟩ : Fin 4096) : S8x2048x4096.Idx) :=
  blk1_emb (adm m hO) t s j

/-- `mem_blk1` at the launch memory's table. -/
theorem out_mem (hO : Ok m) (t : Fin (cfgM m hO).N) (i : S8x2048x4096.Idx) :
    i ∈ (((cfgM m hO).win 1).blk t).view.set ↔ (i 0).val = t.val / 8 ∧ (i 2).val / 512 = t.val % 8 :=
  mem_blk1 (adm m hO) t i

/-- `cover1` at the launch memory's table. -/
theorem out_cover (hO : Ok m) (i : S8x2048x4096.Idx) :
    ∃ t : Fin (cfgM m hO).N, ((cfgM m hO).win 1).flush t = true ∧ i ∈ (((cfgM m hO).win 1).blk t).view.set :=
  cover1 (adm m hO) i

end Cert.KernelIdeal.Blocks
end
-- ==== Proof.KernelIdealFlush.lean ====
/-
  The output array from its blocks.

  The output window writes its block back at every one of the 64 points, and the 64 blocks tile the [8, 2048, 4096]
  output: block `t` is batch element `t / 8`, all 2048 rows, columns 512 (t % 8) … 512 (t % 8) + 511. So if at every
  point the staging buffer holds, at (0, s, j), the value G (t / 8, s, 512 (t % 8) + j) of ONE function `G` of the output's
  index, then what point `t` writes back is block `t` of `G` (`flushed_of`) and the output array ends holding `G`
  (`final_of`). Stated for any proof data of the pipeline at any admissible contents of the table (the output window's
  index map reads none), then at the launch memory's table (`out_flushed`, `out_final`).
-/
import proofs.«401011_j83623013253472_3_alg».proof.Proof.KernelIdealBlocks
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.SL.Sem
open Idealize.ShloMosaic.ValueIdx

variable {F : FTy → Type} [FloatOps F] (m : (ℓ : Loc nD τ sig) → Buf (Elt F) ℓ)

/-- The output window's blocks are uncut, so what a point writes back is what the body left in the staging buffer. -/
theorem flushed1_apply (a : (pcfg0 (F := F)).Adm) (c : Dev nD)
    (dat : Pipeline.Dat τ (Elt F) Unit ℕ (Pipeline.UD sig nD τ) ℕ (cfg0 a) c) (t : Fin (cfg0 a).N) (y : S1x2048x512.Idx) :
    dat.flushed 1 t y = (dat.after 1 t : Vec F S1x2048x512 .f32) y := rfl

/-- An output block read off an array at an index of the block is the array at the embedded index. -/
theorem blk1_read (a : (pcfg0 (F := F)).Adm) (t : Fin (cfg0 a).N) (A : S8x2048x4096.Idx → Elt F .f32) (y : S1x2048x512.Idx) :
    ((((cfg0 a).win 1).blk t).view.read (Elt F) A : Vec F S1x2048x512 .f32) y = A ((((cfg0 a).win 1).blk t).view.emb y) := rfl

/-- What point `t` writes back, at an index of the block: the staging buffer's value there is `G` at the index's place in
    the output, which is where the block's view reads `G`. -/
theorem flushed_apply_of (a : (pcfg0 (F := F)).Adm) (c : Dev nD)
    (dat : Pipeline.Dat τ (Elt F) Unit ℕ (Pipeline.UD sig nD τ) ℕ (cfg0 a) c) (t : Fin (cfg0 a).N)
    (o : Vec F S1x2048x512 .f32) (hafter : dat.after 1 t = o) (G : S8x2048x4096.Idx → Elt F .f32)
    (hG : ∀ (s : Fin 2048) (j : Fin 512), o (ix3 (0 : Fin 1) s j)
      = G (ix3 (⟨t.val / 8, batch_lt t⟩ : Fin 8) s (⟨(t.val % 8) * 512 + j.val, by have := tile_lt t; have := j.isLt; omega⟩ : Fin 4096)))
    (y : S1x2048x512.Idx) :
    dat.flushed 1 t y = ((((cfg0 a).win 1).blk t).view.read (Elt F) G : Vec F S1x2048x512 .f32) y := by
  obtain ⟨u, s, j, rfl⟩ : ∃ (u : Fin 1) (s : Fin 2048) (j : Fin 512), y = ix3 u s j := ⟨y 0, y 1, y 2, eq_ix3 y⟩
  obtain rfl : u = 0 := Fin.ext (by omega)
  refine (flushed1_apply a c dat t _).trans ?_
  refine (congrFun hafter _).trans ?_
  refine (hG s j).trans ?_
  exact (congrArg G (blk1_emb a t s j)).symm.trans (blk1_read a t G _).symm

/-- WHAT POINT `t` WRITES BACK is block `t` of `G`. -/
theorem flushed_of (a : (pcfg0 (F := F)).Adm) (c : Dev nD)
    (dat : Pipeline.Dat τ (Elt F) Unit ℕ (Pipeline.UD sig nD τ) ℕ (cfg0 a) c) (t : Fin (cfg0 a).N)
    (o : Vec F S1x2048x512 .f32) (hafter : dat.after 1 t = o) (G : S8x2048x4096.Idx → Elt F .f32)
    (hG : ∀ (s : Fin 2048) (j : Fin 512), o (ix3 (0 : Fin 1) s j)
      = G (ix3 (⟨t.val / 8, batch_lt t⟩ : Fin 8) s (⟨(t.val % 8) * 512 + j.val, by have := tile_lt t; have := j.isLt; omega⟩ : Fin 4096))) :
    dat.flushed 1 t = (((cfg0 a).win 1).blk t).view.read (Elt F) G :=
  funext fun y => flushed_apply_of a c dat t o hafter G hG y

/-- THE OUTPUT ARRAY after the run is `G`: every point writes its block back and the blocks cover the array. -/
theorem final_of (a : (pcfg0 (F := F)).Adm) (c : Dev nD)
    (dat : Pipeline.Dat τ (Elt F) Unit ℕ (Pipeline.UD sig nD τ) ℕ (cfg0 a) c) (G : S8x2048x4096.Idx → Elt F .f32)
    (hfl : ∀ t : Fin (cfg0 a).N, dat.flushed 1 t = (((cfg0 a).win 1).blk t).view.read (Elt F) G) :
    dat.arrAt 1 (cfg0 a).N = G :=
  dat.arrAt_eq_of_cover 1 G (fun t _ => hfl t) (cover1 a)

/-- `flushed_of` at the launch memory's table. -/
theorem out_flushed (hO : Ok m) (c : Dev nD)
    (dat : Pipeline.Dat τ (Elt F) Unit ℕ (Pipeline.UD sig nD τ) ℕ (cfgM m hO) c) (t : Fin (cfgM m hO).N)
    (o : Vec F S1x2048x512 .f32) (hafter : dat.after 1 t = o) (G : S8x2048x4096.Idx → Elt F .f32)
    (hG : ∀ (s : Fin 2048) (j : Fin 512), o (ix3 (0 : Fin 1) s j)
      = G (ix3 (⟨t.val / 8, batch_lt t⟩ : Fin 8) s (⟨(t.val % 8) * 512 + j.val, by have := tile_lt t; have := j.isLt; omega⟩ : Fin 4096))) :
    dat.flushed 1 t = (((cfgM m hO).win 1).blk t).view.read (Elt F) G :=
  flushed_of (adm m hO) c dat t o hafter G hG

/-- `final_of` at the launch memory's table. -/
theorem out_final (hO : Ok m) (c : Dev nD)
    (dat : Pipeline.Dat τ (Elt F) Unit ℕ (Pipeline.UD sig nD τ) ℕ (cfgM m hO) c) (G : S8x2048x4096.Idx → Elt F .f32)
    (hfl : ∀ t : Fin (cfgM m hO).N, dat.flushed 1 t = (((cfgM m hO).win 1).blk t).view.read (Elt F) G) :
    dat.arrAt 1 (cfgM m hO).N = G :=
  final_of (adm m hO) c dat G hfl

end Cert.KernelIdeal.Blocks
end
-- ==== Proof.KernelIdealPayload.lean ====
/-
  The body's payloads at the ideal values, read at an index.

  The body's one output payload takes the [2048, 4096] scratch `xs` (the rows of one batch element of x, narrowed to the
  16-bit format, which is the identity on ideal values) and the [1, 512, 4096] weight block `w`: it drops the block's unit
  axis, narrows, multiplies contracting both operands' axis 1 into a zero accumulator, and puts a unit axis in front.
  At the ideal values its element (0, s, j) is Σ_k xs[s, k] · w[0, j, k] (`pay3_apply`): a matrix product with the weight
  block transposed. The contraction has one axis of extent 4096, so its index set is `Fin 4096` (`mm_apply`: the product's
  operand indices at output (s, j) and contraction position k are (s, k) and (j, k), axis by axis).
  The four chunk payloads that fill the scratch (drop the unit axis, narrow, a same-shape cast) are the identity on
  values: element (r, k) of the result is element (0, r, k) of the loaded chunk.
-/
import proofs.«401011_j83623013253472_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-! ## The product's operand indices, axis by axis -/

/-- The product's left operand index, axis 0 (not contracted): the output's axis 0. -/
theorem lhs_mm_0 (i : S2048x512.Idx) (q : dot_S2048x4096_S512x4096_S2048x512_1_1_0_0_n_n.contr.Idx) :
    (dot_S2048x4096_S512x4096_S2048x512_1_1_0_0_n_n.lhsIdx i q 0).val = (i 0).val := by
  unfold DotDims.lhsIdx
  rw [dif_neg (show ¬(0 : Fin S2048x4096.rank) ∈ dot_S2048x4096_S512x4096_S2048x512_1_1_0_0_n_n.lhsBatch by decide), dif_pos (show (0 : Fin S2048x4096.rank) ∈ dot_S2048x4096_S512x4096_S2048x512_1_1_0_0_n_n.lhsNonContracting by decide)]
  rfl
/-- The product's left operand index, axis 1 (the contracted one): the contraction position. -/
theorem lhs_mm_1 (i : S2048x512.Idx) (q : dot_S2048x4096_S512x4096_S2048x512_1_1_0_0_n_n.contr.Idx) :
    (dot_S2048x4096_S512x4096_S2048x512_1_1_0_0_n_n.lhsIdx i q 1).val = (q ⟨0, by decide⟩).val :=
  dot_S2048x4096_S512x4096_S2048x512_1_1_0_0_n_n.lhsIdx_val_of_single rfl i q
/-- The product's right operand index, axis 0 (not contracted): the output's axis 1. -/
theorem rhs_mm_0 (i : S2048x512.Idx) (q : dot_S2048x4096_S512x4096_S2048x512_1_1_0_0_n_n.contr.Idx) :
    (dot_S2048x4096_S512x4096_S2048x512_1_1_0_0_n_n.rhsIdx i q 0).val = (i 1).val := by
  unfold DotDims.rhsIdx
  rw [dif_neg (show ¬(0 : Fin S512x4096.rank) ∈ dot_S2048x4096_S512x4096_S2048x512_1_1_0_0_n_n.rhsBatch by decide), dif_pos (show (0 : Fin S512x4096.rank) ∈ dot_S2048x4096_S512x4096_S2048x512_1_1_0_0_n_n.rhsNonContracting by decide)]
  rfl
/-- The product's right operand index, axis 1 (the contracted one): the contraction position. -/
theorem rhs_mm_1 (i : S2048x512.Idx) (q : dot_S2048x4096_S512x4096_S2048x512_1_1_0_0_n_n.contr.Idx) :
    (dot_S2048x4096_S512x4096_S2048x512_1_1_0_0_n_n.rhsIdx i q 1).val = (q ⟨0, by decide⟩).val :=
  dot_S2048x4096_S512x4096_S2048x512_1_1_0_0_n_n.rhsIdx_val_of_single rfl i q

/-! ## The matrix product at an index -/

/-- The product into a zero accumulator, at the ideal values, read at (s, j): Σ_k xs[s, k] · y[j, k]. The sum over the
    contraction's index set is re-indexed over `Fin 4096` through the one contracted coordinate. -/
theorem mm_apply (xs : FVec Ideal S2048x4096 .bf16) (y : FVec Ideal S512x4096 .bf16) (s : Fin 2048) (j : Fin 512) :
    matmul (F := Ideal) dot_S2048x4096_S512x4096_S2048x512_1_1_0_0_n_n none xs y (constant (F := Ideal) S2048x512 .f32 0x00000000#32) (ix2 s j)
      = ∑ k : Fin 4096, xs (ix2 s k) * y (ix2 j k) := by
  refine (Ideal.matmul_constant_zero_apply dot_S2048x4096_S512x4096_S2048x512_1_1_0_0_n_n none xs y (ix2 s j)).trans ?_
  rw [← Equiv.sum_comp (ValueIdx.contrEquiv1 dot_S2048x4096_S512x4096_S2048x512_1_1_0_0_n_n 4096 rfl rfl).symm]
  refine Finset.sum_congr rfl fun k _ => ?_
  have hk := ValueIdx.contrEquiv1_symm_val dot_S2048x4096_S512x4096_S2048x512_1_1_0_0_n_n 4096 rfl rfl k
  have el : dot_S2048x4096_S512x4096_S2048x512_1_1_0_0_n_n.lhsIdx (ix2 s j) ((ValueIdx.contrEquiv1 dot_S2048x4096_S512x4096_S2048x512_1_1_0_0_n_n 4096 rfl rfl).symm k) = ix2 s k := funext fun a => Fin.ext (by
    match a with
    | ⟨0, _⟩ => exact lhs_mm_0 _ _
    | ⟨1, _⟩ => exact (lhs_mm_1 _ _).trans hk)
  have er : dot_S2048x4096_S512x4096_S2048x512_1_1_0_0_n_n.rhsIdx (ix2 s j) ((ValueIdx.contrEquiv1 dot_S2048x4096_S512x4096_S2048x512_1_1_0_0_n_n 4096 rfl rfl).symm k) = ix2 j k := funext fun a => Fin.ext (by
    match a with
    | ⟨0, _⟩ => exact rhs_mm_0 _ _
    | ⟨1, _⟩ => exact (rhs_mm_1 _ _).trans hk)
  rw [el, er]

/-! ## The payloads -/

/-- THE OUTPUT PAYLOAD at (0, s, j): Σ_k xs[s, k] · w[0, j, k]. -/
theorem pay3_apply (xs : Vec Ideal S2048x4096 .bf16) (w : Vec Ideal S1x512x4096 .f32) (s : Fin 2048) (j : Fin 512) :
    k0_pay3 (F := Ideal) xs w (ix3 (0 : Fin 1) s j) = ∑ k : Fin 4096, xs (ix2 s k) * w (ix3 (0 : Fin 1) j k) := by
  unfold k0_pay3
  refine (shapeCast_ab_1ab_apply _ Facts₀.shapeCasts_S2048x512_S1x2048x512 (0 : Fin 1) s j).trans ?_
  refine (mm_apply xs _ s j).trans ?_
  refine Finset.sum_congr rfl fun k _ => ?_
  rw [truncf_apply, shapeCast_1ab_ab_apply]

/-- The first chunk's payload is the loaded chunk with its unit axis dropped. -/
theorem pay4_apply (v : Vec Ideal S1x512x4096 .f32) (r : Fin 512) (k : Fin 4096) :
    k0_pay4 (F := Ideal) v (ix2 r k) = v (ix3 (0 : Fin 1) r k) := by
  unfold k0_pay4
  rw [shapeCast_self, truncf_apply, shapeCast_1ab_ab_apply]
/-- The second chunk's payload is the loaded chunk with its unit axis dropped. -/
theorem pay5_apply (v : Vec Ideal S1x512x4096 .f32) (r : Fin 512) (k : Fin 4096) :
    k0_pay5 (F := Ideal) v (ix2 r k) = v (ix3 (0 : Fin 1) r k) := by
  unfold k0_pay5
  rw [shapeCast_self, truncf_apply, shapeCast_1ab_ab_apply]
/-- The fourth chunk's payload is the loaded chunk with its unit axis dropped. -/
theorem pay2_apply (v : Vec Ideal S1x512x4096 .f32) (r : Fin 512) (k : Fin 4096) :
    k0_pay2 (F := Ideal) v (ix2 r k) = v (ix3 (0 : Fin 1) r k) := by
  unfold k0_pay2
  rw [shapeCast_self, truncf_apply, shapeCast_1ab_ab_apply]
/-- The third chunk's payload (the cast carried out of the second part, then narrowed) is the loaded chunk with its unit
    axis dropped. -/
theorem pay16_apply (v : Vec Ideal S1x512x4096 .f32) (r : Fin 512) (k : Fin 4096) :
    k0_pay1 (F := Ideal) (k0_pay6 (F := Ideal) v) (ix2 r k) = v (ix3 (0 : Fin 1) r k) := by
  unfold k0_pay1 k0_pay6
  rw [shapeCast_self, truncf_apply, shapeCast_1ab_ab_apply]

end Cert.KernelIdeal.Payload
end
-- ==== Proof.KernelIdealPieces.lean ====
/-
  What each case of the kernel's body leaves in the output's staging buffer, as values. At a grid point whose output-tile
  coordinate is 0 (case A) the body first copies the 2048 rows of its batch element of x, 512 rows at a time through the
  two slots of a staging scratch, into the bf16 row cache; at every point it then multiplies the row cache by the weight
  block of the point. So the stored output block is the product payload of the row cache and the weight block: the row
  cache as the point before left it (`out_B`), or as the body has just filled it (`out_A`: the load of the whole cache
  after the four chunk stores reads what those stores leave, which is what the cache ends holding).
-/
import proofs.«401011_j83623013253472_3_alg».proof.Proof.KernelIdealFrame
import proofs.«401011_j83623013253472_3_alg».proof.Proof.KernelIdealPayload
import Idealize.ShloMosaic.Lib.Pipeline.Value
import Idealize.ShloMosaic.Lib.ValueIdx

set_option maxRecDepth 16384

noncomputable section

namespace Cert.KernelIdeal.Pieces

open Cert.KernelIdeal Cert.KernelIdeal.Gen Cert.KernelIdeal.GenP
open Idealize.ShloMosaic Idealize.ShloMosaic.TcCoe Idealize.ShloMosaic.Tactic Idealize.SL.Sem Idealize.ShloMosaic.ValueIdx

/-- The zero offsets of a whole rank-2 rectangle. -/
theorem hz2 : (![0, 0] : Fin 2 → Nat) = fun _ => 0 := funext fun a => by fin_cases a <;> rfl
/-- The zero offsets of a whole rank-3 rectangle. -/
theorem hz3 : (![0, 0, 0] : Fin 3 → Nat) = fun _ => 0 := funext fun a => by fin_cases a <;> rfl

/-- A load of the WHOLE row cache after a list of stores reads what the stores leave, as one function of the index. -/
theorem readCov_whole_eq_canon {F : FTy → Type} [FloatOps F] {sig' : RefSig} {κ : Kind} {sp : Space}
    (v : View sig' κ sp S2048x4096 .bf16) (L : List (View.Piece (Elt F) S2048x4096 .bf16))
    (inb : ∀ a, (![0, 0] : Fin 2 → Nat) a + S2048x4096.size a ≤ S2048x4096.size a) :
    v.readCov L (Rect.unit (s := S2048x4096) ![0, 0] S2048x4096.size inb).toLoadRect = View.canon L :=
  (View.readCov_eq_canon' v L _).trans (View.ld_unit_zero (S := S2048x4096) hz2 inb (View.canon L))

set_option maxHeartbeats 1000000 in
/-- CASE B (the tile coordinate is not 0): the stored block is the product payload of the row cache as the point before
    left it and the weight block. -/
theorem out_B {F : FTy → Type} [FloatOps F] (c : Dev nD) (i : grid0.Coords)
    (a4 : Memref sig .tc .vmem S1x512x4096 .f32) (h4 : a4.IsWhole) (a5 : Memref sig .tc .vmem S1x2048x512 .f32) (h5 : a5.IsWhole)
    (a6 : Memref sig .tc .vmem S2048x4096 .bf16) (h6 : a6.IsWhole) (a7 : Memref sig .tc .vmem S2x512x4096 .f32) (h7 : a7.IsWhole)
    (hc : ¬cond0_0 i) (x0 : Vec F S1x512x4096 .f32) (xt0 : TbBuf0 (F := F) c tbM0_0) (xs0 : Vec F S2048x4096 .bf16)
    (fh0 : HbBuf0 (F := F) c hbM0_0) :
    out0_B_1 c i a4 h4 a5 h5 a6 h6 a7 h7 hc x0 xt0 xs0 fh0 = k0_pay3 xs0 x0 := by
  unfold out0_B_1
  rw [View.read_writes_eq_canon _ _ _ (cover0_B_1 c i a4 h4 a5 h5 a6 h6 a7 h7 hc x0 xt0 xs0 fh0)]
  unfold kernelRun0_B
  dsimp only
  try sl_unfold_words
  rw [View.canon_unit_zero hz3]
  simp only [View.readAt_eq_ld, h6.read_unread, h4.read_unread, View.ld_unit_zero (S := S2048x4096) hz2, View.ld_unit_zero (S := S1x512x4096) hz3]

set_option maxHeartbeats 4000000 in
/-- CASE A (the tile coordinate is 0): the stored block is the product payload of the row cache the body has just
    filled and the weight block. -/
theorem out_A {F : FTy → Type} [FloatOps F] (c : Dev nD) (i : grid0.Coords)
    (a4 : Memref sig .tc .vmem S1x512x4096 .f32) (h4 : a4.IsWhole) (a5 : Memref sig .tc .vmem S1x2048x512 .f32) (h5 : a5.IsWhole)
    (a6 : Memref sig .tc .vmem S2048x4096 .bf16) (h6 : a6.IsWhole) (a7 : Memref sig .tc .vmem S2x512x4096 .f32) (h7 : a7.IsWhole)
    (hc : cond0_0 i) (x0 : Vec F S1x512x4096 .f32) (xt0 : TbBuf0 (F := F) c tbM0_0) (fh0 : HbBuf0 (F := F) c hbM0_0) :
    out0_A_1 c i a4 h4 a5 h5 a6 h6 a7 h7 hc x0 xt0 fh0
      = k0_pay3 (sout0_A_0 c i a4 h4 a5 h5 a6 h6 a7 h7 hc x0 xt0 fh0) x0 := by
  unfold out0_A_1 sout0_A_0
  rw [View.read_writes_eq_canon _ _ _ (cover0_A_1 c i a4 h4 a5 h5 a6 h6 a7 h7 hc x0 xt0 fh0),
    View.read_writes_eq_canon _ _ _ (scover0_A_0 c i a4 h4 a5 h5 a6 h6 a7 h7 hc x0 xt0 fh0)]
  unfold kernelRun0_A
  dsimp only
  try sl_unfold_words
  rw [View.canon_unit_zero hz3, readCov_whole_eq_canon]
  simp only [View.readAt_eq_ld, h4.read_unread, View.ld_unit_zero (S := S1x512x4096) hz3]

end Cert.KernelIdeal.Pieces

end
-- ==== Proof.KernelIdealRowCache.lean ====
/-
  What case A of the kernel's body leaves in its row cache, as a value, at the ideal instance.

  At a grid point whose output-tile coordinate is 0 the body copies the 2048 rows of batch element b of x (b the point's
  batch coordinate), 512 rows at a time, into the [2048, 4096] row cache: chunk n (n = 0, 1, 2, 3) is read off x through the
  slice at offsets (b, 512·n, 0) of extents (1, 512, 4096) with its unit axis dropped, narrowed to the 16-bit format (the
  identity on ideal values) and stored at rows 512·n … 512·n + 511 of the cache. Each of the four stores is therefore a
  block of ONE function of the cache's index, (s, k) ↦ x[b, s, k] (`rowsOf`): element (r, k) of chunk n is
  x[b, 512·n + r, k] (`src_read`, `chunk_apply`: the slice places (0, r, k) at (b + 0, 512·n + r, 0 + k)), and the store's
  rectangle places (r, k) at (512·n + r, k) of the cache (`block_eq`). The four rectangles cover the cache, so the cache
  read back is that function everywhere (`sout_A`).
-/
import proofs.«401011_j83623013253472_3_alg».proof.Proof.KernelIdealFrame
import proofs.«401011_j83623013253472_3_alg».proof.Proof.KernelIdealPayload
import Idealize.ShloMosaic.Lib.Pipeline.Value
import Idealize.ShloMosaic.Lib.ValueIdx
import Idealize.ShloMosaic.Lib.ValueLayout

set_option maxRecDepth 16384

noncomputable section

namespace Cert.KernelIdeal.RowCache

open Cert.KernelIdeal Cert.KernelIdeal.Gen Cert.KernelIdeal.GenP
open Idealize.ShloMosaic Idealize.ShloMosaic.TcCoe Idealize.SL.Sem Idealize.ShloMosaic.ValueIdx

section Core

variable (c : Dev nD) (fh0 : HbBuf0 (F := Ideal) c hbM0_0)

/-- Rows (b, ·, ·) of x as a function of the row cache's index: (s, k) ↦ x[b, s, k]. -/
def rowsOf (b : Fin 8) (y : S2048x4096.Idx) : Elt Ideal .bf16 :=
  fh0 (ix3 b (⟨(y 0).val, idx2_lt0 y⟩ : Fin 2048) (⟨(y 1).val, idx2_lt1 y⟩ : Fin 4096))

/-- x read through the slice at offsets (b, o, 0) of extents (1, 512, 4096), its unit axis dropped: element (r, k) is
    x[b, o + r, k]. -/
theorem src_read (off : Fin 3 → Nat) (inb) (hn) (b : Fin 8) (o : Nat) (hoff : off = ![b.val, o, 0])
    (r : Fin 512) (k : Fin 4096) (ho : o + r.val < 2048) :
    View.read (Elt Ideal) (((View.whole main_arg0).slice (Rect.unit (s := S8x2048x4096) off ![1, 512, 4096] inb)).reshape S512x4096 hn) fh0 (ix2 r k)
      = fh0 (ix3 b (⟨o + r.val, ho⟩ : Fin 2048) k) := by
  subst hoff
  rw [View.read_apply]
  have e : (((View.whole main_arg0).slice (Rect.unit (s := S8x2048x4096) ![b.val, o, 0] ![1, 512, 4096] inb)).reshape S512x4096 hn).emb (ix2 r k)
      = ix3 b (⟨o + r.val, ho⟩ : Fin 2048) k := by
    show (Rect.unit (s := S8x2048x4096) ![b.val, o, 0] ![1, 512, 4096] inb).emb (Shape.reshapeEquiv hn (ix2 r k)) = _
    rw [reshapeEquiv_ix2_1ab]
    funext a
    apply Fin.ext
    match a with
    | ⟨0, _⟩ => show b.val + 1 * 0 = b.val; omega
    | ⟨1, _⟩ => show o + 1 * r.val = o + r.val; omega
    | ⟨2, _⟩ => show 0 + 1 * k.val = k.val; omega
  rw [e]
  rfl

/-- A chunk as the transfer delivers it (the slice's elements re-indexed by the staging slot's shape (1, 512, 4096)), read
    at (0, r, k): x[b, o + r, k]. -/
theorem chunk_apply (off : Fin 3 → Nat) (inb) (hn) (hm) (b : Fin 8) (o : Nat) (hoff : off = ![b.val, o, 0])
    (r : Fin 512) (k : Fin 4096) (ho : o + r.val < 2048) :
    ReadAs.same.apply (View.read (Elt Ideal) (((View.whole main_arg0).slice (Rect.unit (s := S8x2048x4096) off ![1, 512, 4096] inb)).reshape S512x4096 hn) fh0)
        ((Shape.reshapeEquiv (s := S1x512x4096) (s' := S512x4096) hm).symm (ix3 (0 : Fin 1) r k))
      = fh0 (ix3 b (⟨o + r.val, ho⟩ : Fin 2048) k) := by
  rw [ReadAs.apply_same]
  have e : (Shape.reshapeEquiv (s := S1x512x4096) (s' := S512x4096) hm).symm (ix3 (0 : Fin 1) r k) = ix2 r k :=
    (Equiv.symm_apply_eq _).mpr (reshapeEquiv_ix2_1ab hm r k).symm
  rw [e]
  exact src_read c fh0 off inb hn b o hoff r k ho

/-! ## The four slices' offsets at a point of batch coordinate b -/

section Offsets
variable (i : grid0.Coords) (b : Fin 8) (hb : (i 0).val = b.val)
include hb

theorem off2_eq : k0_off2 i = ![b.val, 0, 0] := (k0_off2_eq i).trans (by rw [hb])
theorem off3_eq : k0_off3 i = ![b.val, 512, 0] := (k0_off3_eq i).trans (by rw [hb])
theorem off4_eq : k0_off4 i = ![b.val, 1024, 0] := (k0_off4_eq i).trans (by rw [hb])
theorem off5_eq : k0_off5 i = ![b.val, 1536, 0] := (k0_off5_eq i).trans (by rw [hb])

end Offsets

/-! ## A stored chunk is a block of `rowsOf` -/

/-- A payload that reads x[b, o + r, k] at (r, k), stored through the rectangle of 512 rows from row o of the cache, is
    the block of `rowsOf b` the rectangle names. -/
theorem block_eq (b : Fin 8) (o : Nat) (inb) (w : S512x4096.Idx → Elt Ideal .bf16)
    (hw : ∀ (r : Fin 512) (k : Fin 4096) (ho : o + r.val < 2048), w (ix2 r k) = fh0 (ix3 b (⟨o + r.val, ho⟩ : Fin 2048) k))
    (x : (Rect.unit (s := S2048x4096) ![o, 0] ![512, 4096] inb).shape.Idx) :
    w x = rowsOf c fh0 b ((Rect.unit (s := S2048x4096) ![o, 0] ![512, 4096] inb).emb x) := by
  have hx : x = ix2 (n0 := 512) (n1 := 4096) (x 0) (x 1) := eq_ix2 (n0 := 512) (n1 := 4096) x
  have h0 : (x 0).val < 512 := (x 0).isLt
  have hi : o + 512 ≤ 2048 := inb 0
  rw [hx]
  refine (hw _ _ (by omega)).trans ?_
  unfold rowsOf
  congr 1
  funext a
  apply Fin.ext
  match a with
  | ⟨0, _⟩ => rfl
  | ⟨1, _⟩ => show o + (x 0).val = o + 1 * (x 0).val; omega
  | ⟨2, _⟩ => show (x 1).val = 0 + 1 * (x 1).val; omega

/-! ## The four stored payloads, read at (r, k) -/

section Pieces
variable (i : grid0.Coords) (b : Fin 8) (hb : (i 0).val = b.val)
include hb

/-- The chunk stored at rows 0 … 511. -/
theorem piece0 (inb) (hn) (hm) (r : Fin 512) (k : Fin 4096) (ho : 0 + r.val < 2048) :
    k0_pay4 (F := Ideal) (fun x => ReadAs.same.apply (View.read (Elt Ideal) (((View.whole main_arg0).slice (Rect.unit (s := S8x2048x4096) (k0_off2 i) ![1, 512, 4096] inb)).reshape S512x4096 hn) fh0)
        ((Shape.reshapeEquiv (s := S1x512x4096) (s' := S512x4096) hm).symm x)) (ix2 r k)
      = fh0 (ix3 b (⟨0 + r.val, ho⟩ : Fin 2048) k) := by
  refine (Payload.pay4_apply _ r k).trans ?_
  exact chunk_apply c fh0 _ inb hn hm b 0 (off2_eq i b hb) r k ho

/-- The chunk stored at rows 512 … 1023. -/
theorem piece1 (inb) (hn) (hm) (r : Fin 512) (k : Fin 4096) (ho : 512 + r.val < 2048) :
    k0_pay5 (F := Ideal) (fun x => ReadAs.same.apply (View.read (Elt Ideal) (((View.whole main_arg0).slice (Rect.unit (s := S8x2048x4096) (k0_off3 i) ![1, 512, 4096] inb)).reshape S512x4096 hn) fh0)
        ((Shape.reshapeEquiv (s := S1x512x4096) (s' := S512x4096) hm).symm x)) (ix2 r k)
      = fh0 (ix3 b (⟨512 + r.val, ho⟩ : Fin 2048) k) := by
  refine (Payload.pay5_apply _ r k).trans ?_
  exact chunk_apply c fh0 _ inb hn hm b 512 (off3_eq i b hb) r k ho

/-- The chunk stored at rows 1024 … 1535 (loaded in the body's first part, narrowed in its second). -/
theorem piece2 (inb) (hn) (hm) (r : Fin 512) (k : Fin 4096) (ho : 1024 + r.val < 2048) :
    k0_pay1 (F := Ideal) (k0_pay6 (F := Ideal) (fun x => ReadAs.same.apply (View.read (Elt Ideal) (((View.whole main_arg0).slice (Rect.unit (s := S8x2048x4096) (k0_off4 i) ![1, 512, 4096] inb)).reshape S512x4096 hn) fh0)
        ((Shape.reshapeEquiv (s := S1x512x4096) (s' := S512x4096) hm).symm x))) (ix2 r k)
      = fh0 (ix3 b (⟨1024 + r.val, ho⟩ : Fin 2048) k) := by
  refine (Payload.pay16_apply _ r k).trans ?_
  exact chunk_apply c fh0 _ inb hn hm b 1024 (off4_eq i b hb) r k ho

/-- The chunk stored at rows 1536 … 2047. -/
theorem piece3 (inb) (hn) (hm) (r : Fin 512) (k : Fin 4096) (ho : 1536 + r.val < 2048) :
    k0_pay2 (F := Ideal) (fun x => ReadAs.same.apply (View.read (Elt Ideal) (((View.whole main_arg0).slice (Rect.unit (s := S8x2048x4096) (k0_off5 i) ![1, 512, 4096] inb)).reshape S512x4096 hn) fh0)
        ((Shape.reshapeEquiv (s := S1x512x4096) (s' := S512x4096) hm).symm x)) (ix2 r k)
      = fh0 (ix3 b (⟨1536 + r.val, ho⟩ : Fin 2048) k) := by
  refine (Payload.pay2_apply _ r k).trans ?_
  exact chunk_apply c fh0 _ inb hn hm b 1536 (off5_eq i b hb) r k ho

end Pieces

/-! ## The four stores together -/

/-- The closed form of case A's pieces for the row cache, at any index one of them covers: `rowsOf b` there. -/
theorem canon_A (i : grid0.Coords)
    (a4 : Memref sig .tc .vmem S1x512x4096 .f32) (h4 : a4.IsWhole) (a5 : Memref sig .tc .vmem S1x2048x512 .f32) (h5 : a5.IsWhole)
    (a6 : Memref sig .tc .vmem S2048x4096 .bf16) (h6 : a6.IsWhole) (a7 : Memref sig .tc .vmem S2x512x4096 .f32) (h7 : a7.IsWhole)
    (hc : cond0_0 i) (x0 : Vec Ideal S1x512x4096 .f32) (xt0 : TbBuf0 (F := Ideal) c tbM0_0)
    (b : Fin 8) (hb : (i 0).val = b.val) (y : S2048x4096.Idx)
    (hcov : ∃ pc ∈ (kernelRun0_A (F := Ideal) c i a4 h4 a5 h5 a6 h6 a7 h7 hc x0 xt0 fh0).2.1, y ∈ pc.1.set) :
    View.canon (kernelRun0_A (F := Ideal) c i a4 h4 a5 h5 a6 h6 a7 h7 hc x0 xt0 fh0).2.1 y = rowsOf c fh0 b y := by
  refine View.canon_apply_of_pieces (rowsOf c fh0 b) _ ?_ y hcov
  unfold kernelRun0_A
  dsimp only
  intro p hp
  rcases List.mem_cons.mp hp with rfl | hp
  · dsimp only
    exact block_eq c fh0 b 1536 _ _ (piece3 c fh0 i b hb _ _ _)
  rcases List.mem_cons.mp hp with rfl | hp
  · dsimp only
    exact block_eq c fh0 b 1024 _ _ (piece2 c fh0 i b hb _ _ _)
  rcases List.mem_cons.mp hp with rfl | hp
  · dsimp only
    exact block_eq c fh0 b 512 _ _ (piece1 c fh0 i b hb _ _ _)
  rcases List.mem_cons.mp hp with rfl | hp
  · dsimp only
    exact block_eq c fh0 b 0 _ _ (piece0 c fh0 i b hb _ _ _)
  · exact absurd hp List.not_mem_nil

end Core

/-! ## The row cache read back -/

/-- CASE A's row cache, at the ideal instance: row `s`, feature `k` of batch element `b` of x, `b` the point's batch
    coordinate. The four pieces cover the cache, so what it reads back is their closed form. -/
theorem sout_A (c : Dev nD) (i : grid0.Coords)
    (a4 : Memref sig .tc .vmem S1x512x4096 .f32) (h4 : a4.IsWhole) (a5 : Memref sig .tc .vmem S1x2048x512 .f32) (h5 : a5.IsWhole)
    (a6 : Memref sig .tc .vmem S2048x4096 .bf16) (h6 : a6.IsWhole) (a7 : Memref sig .tc .vmem S2x512x4096 .f32) (h7 : a7.IsWhole)
    (hc : cond0_0 i) (x0 : Vec Ideal S1x512x4096 .f32) (xt0 : TbBuf0 (F := Ideal) c tbM0_0) (fh0 : HbBuf0 (F := Ideal) c hbM0_0)
    (b : Fin 8) (hb : (i 0).val = b.val) (s : Fin 2048) (k : Fin 4096) :
    sout0_A_0 (F := Ideal) c i a4 h4 a5 h5 a6 h6 a7 h7 hc x0 xt0 fh0 (ix2 s k) = fh0 (ix3 b s k) := by
  unfold sout0_A_0
  rw [View.read_writes_eq_canon _ _ _ (scover0_A_0 c i a4 h4 a5 h5 a6 h6 a7 h7 hc x0 xt0 fh0)]
  exact (canon_A c fh0 i a4 h4 a5 h5 a6 h6 a7 h7 hc x0 xt0 b hb (ix2 s k)
    (scover0_A_0 c i a4 h4 a5 h5 a6 h6 a7 h7 hc x0 xt0 fh0 (ix2 s k))).trans rfl

end Cert.KernelIdeal.RowCache

end
-- ==== Proof.Spec.lean ====
/-
  The function both programs compute, on extended reals: for batch element `b`, sequence row `s` and output feature
  `o`,   out[b, s, o] = Σ_k x[b, s, k] · weight[a b, o, k]   (k over the 4096 input features),
  where `a b` is the adapter row batch element `b` selects (AdapterIndex.lean's `sel` of its id word).
  Stated once over explicit coordinates (`gemmAt`) and once as a whole array (`gemm`).
-/
import Idealize.ShloMosaic.Lib.ValueIdx
import proofs.«401011_j83623013253472_3_alg».proof.Proof.AdapterIndex

noncomputable section

open scoped BigOperators

namespace Cert.Spec

open Idealize.ShloMosaic Idealize.ShloMosaic.ValueIdx

abbrev SX : Shape := ⟨3, ![8, 2048, 4096]⟩
abbrev SW : Shape := ⟨3, ![16, 4096, 4096]⟩
abbrev SI : Shape := ⟨1, ![8]⟩

/-- One output element: row `s` of batch `b` against row `o` of the adapter `a b`. -/
def gemmAt (a : Fin 8 → Fin 16) (x : SX.Idx → EReal) (w : SW.Idx → EReal) (b : Fin 8) (s : Fin 2048) (o : Fin 4096) : EReal :=
  ∑ k : Fin 4096, x (ix3 b s k) * w (ix3 (a b) o k)

/-- The whole result array. -/
def gemm (a : Fin 8 → Fin 16) (x : SX.Idx → EReal) (w : SW.Idx → EReal) : SX.Idx → EReal :=
  fun i => gemmAt a x w ⟨(i 0).val, (i 0).isLt⟩ ⟨(i 1).val, (i 1).isLt⟩ ⟨(i 2).val, (i 2).isLt⟩

/-- The adapter rows the id words select. -/
def rows (ids : IVec SI 32) : Fin 8 → Fin 16 := fun b => Cert.AdapterIndex.sel (ids (ix1 b))

theorem gemm_ix3 (a : Fin 8 → Fin 16) (x : SX.Idx → EReal) (w : SW.Idx → EReal) (b : Fin 8) (s : Fin 2048) (o : Fin 4096) :
    gemm a x w (ix3 b s o) = gemmAt a x w b s o := rfl

end Cert.Spec

end
-- ==== Proof.KernelIdealValue.lean ====
/-
  The idealized kernel's result array, at the ideal instance: after the run, element (b, s, o) of the output holds
      Σ_k x[b, s, k] · weight[a b, o, k],   a b = the id word of batch element b clamped into [0, 15],
  the function of Spec.lean at the launch memory's arrays.

  The grid's point t is batch element t / 8 and output tile t % 8, points taken in order. The bf16 row cache the body
  carries from point to point is filled at the first tile of every batch element and left alone at the other seven, so
  after point n it holds rows (n / 8, ·, ·) of x (`cache_eq`, by induction on the point). At every point the stored block
  is the product of the row cache with the weight block the prefetched table selects, block (sel (id (t / 8)), t % 8, 0)
  of the weight array: row s, column j of it is the sum above at (t / 8, s, 512 (t % 8) + j) (`block_eq`). The output
  window places that block at (t / 8, 0, t % 8), the 64 blocks tile the output array, and every point writes its block
  back: the array ends at the function (`final`, `run`).
-/
import proofs.«401011_j83623013253472_3_alg».proof.Proof.KernelIdealFrame
import proofs.«401011_j83623013253472_3_alg».proof.Proof.KernelIdealFlush
import proofs.«401011_j83623013253472_3_alg».proof.Proof.KernelIdealPieces
import proofs.«401011_j83623013253472_3_alg».proof.Proof.KernelIdealRowCache
import proofs.«401011_j83623013253472_3_alg».proof.Proof.KernelIdealPayload
import proofs.«401011_j83623013253472_3_alg».proof.Proof.Spec
import Idealize.ShloMosaic.Lib.Pipeline.Value

set_option maxRecDepth 16384

noncomputable section

open scoped BigOperators

namespace Cert.KernelIdeal.KValue

open Cert.KernelIdeal Cert.KernelIdeal.Gen Cert.KernelIdeal.GenP Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (hO : Ok m)

/-- x and the weights as the launch memory holds them, at their literal types. -/
abbrev xarr (c : Dev nD) : Vec Ideal S8x2048x4096 .f32 := m ((c : Thread nD τ).loc main_arg0)
abbrev warr (c : Dev nD) : Vec Ideal S16x4096x4096 .f32 := m ((c : Thread nD τ).loc main_arg2)

/-- Column 512 (t % 8) + j of the output: inside the 4096 output features. -/
theorem col_lt (t : Fin grid0.N) (j : Fin 512) : (t.val % 8) * 512 + j.val < 4096 := by
  have := tile_lt t; have := j.isLt; omega

/-- THE ROW CACHE after point n: rows (n / 8, ·, ·) of x. Filled at the first tile of a batch element (case A), carried
    unchanged through the other tiles (case B), where n / 8 = (n − 1) / 8. -/
theorem cache_eq (c : Dev nD) : ∀ (n : ℕ) (hn : n < (cfgM m hO).N) (s : Fin 2048) (k : Fin 4096),
    (outsAt0 m hO c n hn).2 (ix2 s k) = xarr m c (ix3 (⟨n / 8, batch_lt ⟨n, hn⟩⟩ : Fin 8) s k)
  | 0, hn, s, k => by
    rw [outsAt0_A m hO c ⟨0, hn⟩ (Nat.zero_mod _)]
    dsimp only
    refine (Cert.KernelIdeal.RowCache.sout_A c (grid0.coords ⟨0, hn⟩) (ms0_0 m hO ⟨0, hn⟩) (hs0_0 m hO ⟨0, hn⟩)
      (ms0_1 m hO ⟨0, hn⟩) (hs0_1 m hO ⟨0, hn⟩) scM0_0 (Memref.isWhole_whole _) scM0_1 (Memref.isWhole_whole _)
      ((hcond0_0 ⟨0, hn⟩).mpr (Nat.zero_mod _)) (iblk m hO c 0 ⟨0, hn⟩) (tbl m 0) (V m c main_arg0)
      (⟨0 / 8, batch_lt ⟨0, hn⟩⟩ : Fin 8) (coords_val ⟨0, hn⟩).1 s k).trans ?_
    rw [V_main_arg0]
  | n + 1, hn, s, k => by
    by_cases h0 : (n + 1) % 8 = 0
    · rw [outsAt0_A m hO c ⟨n + 1, hn⟩ h0]
      dsimp only
      refine (Cert.KernelIdeal.RowCache.sout_A c (grid0.coords ⟨n + 1, hn⟩) (ms0_0 m hO ⟨n + 1, hn⟩) (hs0_0 m hO ⟨n + 1, hn⟩)
        (ms0_1 m hO ⟨n + 1, hn⟩) (hs0_1 m hO ⟨n + 1, hn⟩) scM0_0 (Memref.isWhole_whole _) scM0_1 (Memref.isWhole_whole _)
        ((hcond0_0 ⟨n + 1, hn⟩).mpr h0) (iblk m hO c 0 ⟨n + 1, hn⟩) (tbl m 0) (V m c main_arg0)
        (⟨(n + 1) / 8, batch_lt ⟨n + 1, hn⟩⟩ : Fin 8) (coords_val ⟨n + 1, hn⟩).1 s k).trans ?_
      rw [V_main_arg0]
    · rw [outsAt0_B m hO c ⟨n + 1, hn⟩ h0]
      dsimp only
      unfold sout0_B_0
      have eb : (⟨n / 8, batch_lt ⟨n, Nat.lt_of_succ_lt hn⟩⟩ : Fin 8) = ⟨(n + 1) / 8, batch_lt ⟨n + 1, hn⟩⟩ :=
        Fin.ext (by show n / 8 = (n + 1) / 8; omega)
      exact (cache_eq c n (Nat.lt_of_succ_lt hn) s k).trans (by rw [eb])

/-- THE STORED BLOCK at point t, row s, column j: the sum over the input features of x[t / 8, s, k] times
    weight[sel (id (t / 8)), 512 (t % 8) + j, k]. -/
theorem block_eq (c : Dev nD) (t : Fin (cfgM m hO).N) (s : Fin 2048) (j : Fin 512) :
    (outsAt0 m hO c t.val t.isLt).1 (ix3 (0 : Fin 1) s j)
      = ∑ k : Fin 4096, xarr m c (ix3 (⟨t.val / 8, batch_lt t⟩ : Fin 8) s k)
          * warr m c
              (ix3 (Cert.AdapterIndex.sel (m (((0 : Dev nD) : Thread nD τ).loc main_arg1) (ix1 (⟨t.val / 8, batch_lt t⟩ : Fin 8))))
                (⟨(t.val % 8) * 512 + j.val, col_lt t j⟩ : Fin 4096) k) := by
  by_cases h0 : t.val % 8 = 0
  · rw [outsAt0_A m hO c t h0]
    dsimp only
    refine (congrFun (Cert.KernelIdeal.Pieces.out_A (F := Ideal) c (grid0.coords t) (ms0_0 m hO t) (hs0_0 m hO t)
      (ms0_1 m hO t) (hs0_1 m hO t) scM0_0 (Memref.isWhole_whole _) scM0_1 (Memref.isWhole_whole _)
      ((hcond0_0 t).mpr h0) (iblk m hO c 0 t) (tbl m 0) (V m c main_arg0)) (ix3 (0 : Fin 1) s j)).trans ?_
    refine (Cert.KernelIdeal.Payload.pay3_apply _ _ s j).trans ?_
    refine Finset.sum_congr rfl fun k _ => ?_
    rw [Cert.KernelIdeal.RowCache.sout_A c (grid0.coords t) (ms0_0 m hO t) (hs0_0 m hO t)
      (ms0_1 m hO t) (hs0_1 m hO t) scM0_0 (Memref.isWhole_whole _) scM0_1 (Memref.isWhole_whole _)
      ((hcond0_0 t).mpr h0) (iblk m hO c 0 t) (tbl m 0) (V m c main_arg0)
      (⟨t.val / 8, batch_lt t⟩ : Fin 8) (coords_val t).1 s k, iblk0_apply m hO c t j k, V_main_arg0]
  · rw [outsAt0_B m hO c t h0]
    dsimp only
    refine (congrFun (Cert.KernelIdeal.Pieces.out_B (F := Ideal) c (grid0.coords t) (ms0_0 m hO t) (hs0_0 m hO t)
      (ms0_1 m hO t) (hs0_1 m hO t) scM0_0 (Memref.isWhole_whole _) scM0_1 (Memref.isWhole_whole _)
      (fun h => h0 ((hcond0_0 t).mp h)) (iblk m hO c 0 t) (tbl m 0)
      (outsAt0 m hO c (t.val - 1) (Nat.lt_of_le_of_lt (Nat.sub_le _ _) t.isLt)).2 (V m c main_arg0)) (ix3 (0 : Fin 1) s j)).trans ?_
    refine (Cert.KernelIdeal.Payload.pay3_apply _ _ s j).trans ?_
    refine Finset.sum_congr rfl fun k _ => ?_
    have eb : (⟨(t.val - 1) / 8, batch_lt ⟨t.val - 1, Nat.lt_of_le_of_lt (Nat.sub_le _ _) t.isLt⟩⟩ : Fin 8) = ⟨t.val / 8, batch_lt t⟩ :=
      Fin.ext (by show (t.val - 1) / 8 = t.val / 8; omega)
    rw [cache_eq m hO c (t.val - 1) (Nat.lt_of_le_of_lt (Nat.sub_le _ _) t.isLt) s k, eb, iblk0_apply m hO c t j k]

/-- The result array of core c: the function of Spec.lean of the launch memory's arrays. -/
abbrev result (c : Dev nD) : Buf (Elt Ideal) ((c : Thread nD τ).loc main_v1) :=
  Cert.Spec.gemm (Cert.Spec.rows (m (((0 : Dev nD) : Thread nD τ).loc main_arg1)))
    (m ((c : Thread nD τ).loc main_arg0)) (m ((c : Thread nD τ).loc main_arg2))

/-- WHAT POINT t WRITES BACK is block t of the result. -/
theorem flushed_eq (c : Dev nD) (t : Fin (cfgM m hO).N) :
    (dats m hO 0 c).flushed 1 t = (((cfgM m hO).win 1).blk t).view.read (Elt Ideal) (result m c) := by
  refine out_flushed m hO c (dats m hO 0 c) t _ (after0_1 m hO c t) (result m c) (fun s j => ?_)
  rw [block_eq m hO c t s j]
  rfl

/-- THE OUTPUT ARRAY after the run: the 64 blocks tile it. -/
theorem final (c : Dev nD) : (dats m hO 0 c).arrAt 1 (cfgM m hO).N = result m c :=
  out_final m hO c (dats m hO 0 c) (result m c) (flushed_eq m hO c)

include hO in
/-- The run, read: the result array at the function, the three argument arrays unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 1).trans (final m hO c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats m hO 0 c).arrAt_in 0 rfl _).trans ((A_eq m hO c 0).trans (V_main_arg2 m c)))⟩)
    (run_main m ρ hO)

end Cert.KernelIdeal.KValue

end
-- ==== Proof.RefValue.lean ====
/-
  The reference's result is the function of Spec.lean: for batch element `b`, sequence row `s` and output feature `o`,
      out[b, s, o] = Σ_k x[b, s, k] · weight[a b, o, k],   a b = the id word of `b` clamped into [0, 15],
  whenever every id is nonnegative.
  The reference contracts `x` against a gathered copy of the weights, `g[b, o, k] = weight[c b, o, k]`. The gather's
  dimension numbers collapse the adapter axis and start-index it, and carry the two remaining axes as offset axes with
  full slices; so at (b, o, k) the operand index is (start, o, k), where the start is the b-th start index read as a
  signed integer and clamped into [0, 16 − 1] (`gather_at`). The b-th start index is the id wrapped once: `id + 16`
  where `id < 0`, else `id` (`start_at`). On a nonnegative id the wrap is the identity, and the clamp of the id's
  integer value into [0, 15] is the adapter row of AdapterIndex.lean by definition.
-/
import proofs.«401011_j83623013253472_3_alg».proof.Proof.Gen.ReferenceIdeal.Read
import proofs.«401011_j83623013253472_3_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The gather's dimension numbers: operand [16, 4096, 4096], start indices [8, 1], result [8, 4096, 4096]. -/
local notation "gd" => gather_S16x4096x4096_S8x1_S8x4096x4096_12_0_n_n_0_1_140964096

set_option maxHeartbeats 50000 in
/-- THE GATHER AT (b, o, k): the operand at (start, o, k), the start being row `b` of the start-index column (the word
    `w`) read signed and clamped into [0, 15], which is the adapter row `sel w` of AdapterIndex.lean. Axis 0 is collapsed and start-indexed (slice size 1, so the clamp's upper end is
    16 − 1), with no batching and no offset coordinate; axes 1 and 2 are not start-indexed (start 0) and read the
    result's offset coordinates 1 and 2. -/
theorem gather_at {α : Type} (x2 : S16x4096x4096.Idx → α) (idx : IVec S8x1 32) (b : Fin 8) (o k : Fin 4096)
    (w : BitVec 32) (hw : idx (ix2 b 0) = w) :
    Host.gather gd x2 idx (ix3 b o k) = x2 (ix3 (Cert.AdapterIndex.sel w) o k) := by
  subst hw
  unfold Host.gather
  congr 1
  funext a
  refine Fin.ext ?_
  match a with
  | ⟨0, _⟩ =>
    show GatherDims.start gd (ix3 b o k) idx 0 + GatherDims.batchCoord gd (ix3 b o k) 0
      + GatherDims.offCoord gd (ix3 b o k) 0 = _
    rw [GatherDims.batchCoord_eq_zero _ _ _ (by decide), GatherDims.offCoord_eq_zero _ _ _ (by decide)]
    unfold GatherDims.start
    rw [dif_pos (by decide)]
    -- the start-indices index the component is read at: the result's batch coordinate, and 0 on the index vector's axis
    have hsi : GatherDims.siIdx gd (ix3 b o k)
        ⟨List.idxOf (0 : Fin 3) (GatherDims.startIndexMap gd), List.idxOf_lt_length_iff.2 (by decide)⟩ = ix2 b 0 := by
      funext c
      refine Fin.ext ?_
      match c with
      | ⟨0, _⟩ => rfl
      | ⟨1, _⟩ => rfl
    rw [hsi]
    rfl
  | ⟨1, _⟩ =>
    show GatherDims.start gd (ix3 b o k) idx 1 + GatherDims.batchCoord gd (ix3 b o k) 1
      + GatherDims.offCoord gd (ix3 b o k) 1 = _
    rw [GatherDims.batchCoord_eq_zero _ _ _ (by decide)]
    unfold GatherDims.start GatherDims.offCoord
    rw [dif_neg (by decide), dif_pos (by decide), Nat.zero_add]
    rfl
  | ⟨2, _⟩ =>
    show GatherDims.start gd (ix3 b o k) idx 2 + GatherDims.batchCoord gd (ix3 b o k) 2
      + GatherDims.offCoord gd (ix3 b o k) 2 = _
    rw [GatherDims.batchCoord_eq_zero _ _ _ (by decide)]
    unfold GatherDims.start GatherDims.offCoord
    rw [dif_neg (by decide), dif_pos (by decide), Nat.zero_add]
    rfl

/-- Row `b` of the start-index column: the id word of `b`, plus 16 where it is negative. -/
theorem start_at (x1 : (⟨S8, .i32⟩ : BufTy).Contents (Elt Ideal)) (b : Fin 8) :
    val_main_v5 (F := Ideal) x1 (ix2 b 0)
      = Scalar.select (IntOp.cmpi .slt (x1 (ix1 b)) 0#32) (IntOp.addi (x1 (ix1 b)) 16#32) (x1 (ix1 b)) := by
  have e : idx_main_v5 (ix2 b (0 : Fin 1)) = ix1 b := by
    funext a
    match a with
    | ⟨0, _⟩ => rfl
  rw [val_main_v5_apply, e, val_main_v4_apply, val_main_v1_apply, val_main_v3_apply, val_main_v0_apply,
    val_main_v2_apply, val_main_c_apply, val_main_c_0_apply]

/-- The gathered weights at (b, o, k) under nonnegative ids: the weights of the adapter row `b` selects. -/
theorem gathered_at (x1 : (⟨S8, .i32⟩ : BufTy).Contents (Elt Ideal))
    (x2 : (⟨S16x4096x4096, .f32⟩ : BufTy).Contents (Elt Ideal)) (h : ∀ b : Fin 8, 0 ≤ (x1 (ValueIdx.ix1 b)).toInt)
    (b : Fin 8) (o k : Fin 4096) :
    val_main_v6 (F := Ideal) x1 x2 (ix3 b o k) = x2 (ix3 (Cert.Spec.rows x1 b) o k) := by
  unfold val_main_v6
  exact gather_at x2 _ b o k _ ((start_at x1 b).trans (Cert.AdapterIndex.wrap_of_nonneg _ (h b)))

set_option maxHeartbeats 50000 in
/-- The reference computes the function of Spec.lean at the adapter rows its ids select. -/
theorem result_eq (x0 : (⟨S8x2048x4096, .f32⟩ : BufTy).Contents (Elt Ideal))
    (x1 : (⟨S8, .i32⟩ : BufTy).Contents (Elt Ideal)) (x2 : (⟨S16x4096x4096, .f32⟩ : BufTy).Contents (Elt Ideal))
    (h : ∀ b : Fin 8, 0 ≤ (x1 (ValueIdx.ix1 b)).toInt) :
    Cert.ReferenceIdeal.Read.val_main_v7 (F := Ideal) x0 x1 x2 = Cert.Spec.gemm (Cert.Spec.rows x1) x0 x2 := by
  funext i
  obtain ⟨b, s, o, rfl⟩ : ∃ (b : Fin 8) (s : Fin 2048) (o : Fin 4096), i = ix3 b s o := ⟨i 0, i 1, i 2, eq_ix3 i⟩
  rw [val_main_v7_apply, Cert.Spec.gemm_ix3]
  unfold Cert.Spec.gemmAt
  refine Finset.sum_congr rfl fun k _ => ?_
  -- the contraction reads x at (b, s, k) and the gathered weights at (b, o, k)
  have el : lidx_main_v7 (ix3 b s o) k = ix3 b s k := by
    funext a
    match a with
    | ⟨0, _⟩ => rfl
    | ⟨1, _⟩ => rfl
    | ⟨2, _⟩ => rfl
  have er : ridx_main_v7 (ix3 b s o) k = ix3 b o k := by
    funext a
    match a with
    | ⟨0, _⟩ => rfl
    | ⟨1, _⟩ => rfl
    | ⟨2, _⟩ => rfl
  rw [el, er, gathered_at x1 x2 h b o k]

end Cert.ReferenceIdeal.RefValue

end
-- ==== Proof.PreDecode.lean ====
/-
  The precondition read back at the id vector. The printed predicate is the conjunction of three "all" tests: the
  activations finite, the weights finite, and every adapter id nonnegative as a signed 32-bit integer. Where the
  predicate holds, the third conjunct gives, batch element by batch element, `0 ≤ id`. The two finiteness tests are
  not read here.
-/
import proofs.«401011_j83623013253472_3_alg».proof.Pre_finite_inputs
import proofs.«401011_j83623013253472_3_alg».proof.Proof.Gen.Pre_finite_inputs
import Idealize.ShloMosaic.Lib.ReduceAll
import Idealize.ShloMosaic.Lib.ValueIdx
import proofs.«401011_j83623013253472_3_alg».proof.Proof.AdapterIndex

namespace Cert.PreDecode

open Idealize.ShloMosaic Idealize.ShloMosaic.ValueIdx

/-- The scalar shape has one index. -/
instance : Subsingleton Cert.Pre_finite_inputs.S_.Idx := ⟨fun _ _ => funext fun d => d.elim0⟩

set_option maxHeartbeats 50000 in
/-- Where the printed precondition holds, every adapter id is nonnegative. -/
theorem ids_nonneg [hP : Cert.Pre_finite_inputs.Facts] {F : FTy → Type} [FloatOps F]
    (x0 : FVec F Cert.Pre_finite_inputs.S8x2048x4096 .f32) (x1 : IVec Cert.Pre_finite_inputs.S8 32)
    (x2 : FVec F Cert.Pre_finite_inputs.S16x4096x4096 .f32)
    (h : Cert.Pre_finite_inputs.fn (F := F) x0 x1 x2 = fun _ => 1#1) :
    ∀ b : Fin 8, 0 ≤ (x1 (ValueIdx.ix1 b)).toInt := by
  intro b
  have h0 := congrFun h ValueIdx.ix0
  dsimp only [Cert.Pre_finite_inputs.fn] at h0
  -- the outer conjunction: (finite x ∧ finite w) ∧ all (id ≥ 0); keep the right conjunct
  have h1 := (IntOp.andi_eq_one.1 h0).2
  -- an "all" that is 1 had a 1 at every index of the compared vector
  have h2 := Host.reduce_andi_all _ _ _ _ _ h1 (ix1 b)
  -- at index b the compared words are the id and the broadcast 0
  exact Cert.AdapterIndex.nonneg_of_sge _ h2

end Cert.PreDecode
-- ==== Proof.lean ====
/-
  The kernel computes, for batch element b, sequence row s and output feature o,
      out[b, s, o] = Σ_k x[b, s, k] · weight[a b, o, k]      (k over the 4096 input features),
  where a b is the adapter id of b clamped into [0, 15]: a pipelined region over 8 batch elements × 8 output tiles whose
  weight window is placed by a prefetched table of clamped ids, whose body copies the batch element's rows of x into a
  row cache at the first tile and multiplies the cache by the weight block at every tile. The reference gathers one
  weight matrix per batch element and contracts; its indexing wraps a negative id (id + 16) before the gather clamps.

  On ids ≥ 0 — the precondition's third conjunct — the reference's wrap is the identity and its gather's clamp is the
  kernel's clamp, so both programs compute the function of Spec.lean, the same sum in the same order of terms: no
  algebra on the extended reals is needed, and finiteness of x and weight is never used.

  frame_Kernel, frame_KernelIdeal: the frame of the pipelined region, under the side condition that every block the
    table places lies inside the weight array — which the clamp alone gives, for every id (KernelTable.lean, KernelIdealTable.lean).
  frame_ReferenceIdeal: the reference's run, its result dropped.
  preserves: the idealization rewrote nothing.
  algebraic: the kernel's result array is the function at the launch memory's arrays (KernelIdealValue.lean); the
    reference's result is the function at its own arrays where the ids are nonnegative (RefValue.lean, PreDecode.lean);
    the arrays agree.
-/
import proofs.«401011_j83623013253472_3_alg».proof.Defs
import proofs.«401011_j83623013253472_3_alg».proof.Proof.Gen.Kernel
import proofs.«401011_j83623013253472_3_alg».proof.Proof.Gen.KernelIdeal
import proofs.«401011_j83623013253472_3_alg».proof.Proof.Gen.ReferenceIdeal
import proofs.«401011_j83623013253472_3_alg».proof.Proof.Gen.ReferenceIdeal.Run
import proofs.«401011_j83623013253472_3_alg».proof.Proof.Gen.ReferenceIdeal.Read
import proofs.«401011_j83623013253472_3_alg».proof.Proof.Gen.Pre_finite_inputs
import proofs.«401011_j83623013253472_3_alg».proof.Proof.KernelFrame
import proofs.«401011_j83623013253472_3_alg».proof.Proof.KernelTable
import proofs.«401011_j83623013253472_3_alg».proof.Proof.KernelIdealFrame
import proofs.«401011_j83623013253472_3_alg».proof.Proof.KernelIdealTable
import proofs.«401011_j83623013253472_3_alg».proof.Proof.KernelIdealValue
import proofs.«401011_j83623013253472_3_alg».proof.Proof.RefValue
import proofs.«401011_j83623013253472_3_alg».proof.Proof.PreDecode
import Idealize.ShloMosaic.Adequacy
import Idealize.ShloMosaic.Init

noncomputable section

namespace Cert.Proof

open Idealize.ShloMosaic Idealize.SL.Sem

/-- The word-level kernel runs and leaves its arguments alone: the table's blocks lie inside the weight array. -/
theorem frame_k : Cert.frame_Kernel := fun m ρ _ => Cert.Kernel.GenP.frame m ρ (Cert.Kernel.Table.ok m)

/-- The same for the idealized kernel. -/
theorem frame_ki : Cert.frame_KernelIdeal := fun m ρ _ => Cert.KernelIdeal.GenP.frame m ρ (Cert.KernelIdeal.Table.ok m)

/-- The reference runs and leaves its arguments alone. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both results are the function of Spec.lean at arrays that agree; the ids are nonnegative by the precondition. -/
theorem algebraic : Cert.algebraic_KernelIdeal_ReferenceIdeal := by
  intro m ρ m' ρ' hpre hagree
  refine ⟨fun c => Cert.KernelIdeal.KValue.result m c,
    Cert.KernelIdeal.KValue.run m ρ (Cert.KernelIdeal.Table.ok m), ?_⟩
  refine (θ_run Cert.ReferenceIdeal.defs _ _).mono (fun _ h c => ⟨(h c).1.trans ?_, (h c).2⟩)
    (Cert.ReferenceIdeal.Value.run (F := Ideal) m' ρ')
  have hids := Cert.PreDecode.ids_nonneg _ _ _ (hpre c)
  rw [(hagree c).1, (hagree c).2.1, (hagree c).2.2, Cert.ReferenceIdeal.Read.val_main_v7_eq,
    Cert.ReferenceIdeal.RefValue.result_eq _ _ _ hids]
  obtain rfl : c = 0 := Subsingleton.elim _ _
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
